-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S139x128 : Shape := ⟨2, ![139, 128]⟩
abbrev S_ : Shape := ⟨0, ![]⟩

class Facts : Prop where
  bcast_S_S139x128 : S_.BroadcastsInDim S139x128 (![] : Fin 0 → Fin S139x128.rank)
  reducesTo_S139x128_S_d0_1 : S139x128.ReducesTo [0, 1] S_
  h_S_ : 0 < S_.numel

variable [Facts]

def fn {F : FTy → Type} [FloatOps F] (main_arg0 : IVec S1x1024 32) (main_arg1 : IVec S1x1024 32) (main_arg2 : IVec S1x1024 32) (main_arg3 : IVec S1x1024 32) (main_arg4 : IVec S1x1024 32) (main_arg5 : FVec F S139x128 .f32) : IVec S_ 1 :=
  let main_v0 : FVec F S139x128 .f32 := Host.absf main_arg5
  let main_cst : FVec F S_ .f32 := constant S_ .f32 0x7F800000#32
  let main_v1 : FVec F S139x128 .f32 := broadcastInDim S139x128 ![] bcast_S_S139x128 main_cst
  let main_v2 : IVec S139x128 1 := cmpf .olt main_v0 main_v1
  let main_c : IVec S_ 1 := constantI S_ 1 1#1
  let main_v3 : IVec S_ 1 := (fun x v => Host.reduce IntOp.andi x v reducesTo_S139x128_S_d0_1 h_S_) main_v2 main_c
  main_v3
-- ==== Kernel.lean ====
abbrev S1x1024 : Shape := ⟨2, ![1, 1024]⟩
abbrev S139x128 : Shape := ⟨2, ![139, 128]⟩
abbrev S1024 : Shape := ⟨1, ![1024]⟩
abbrev S1024x1 : Shape := ⟨2, ![1024, 1]⟩
abbrev S1024x5 : Shape := ⟨2, ![1024, 5]⟩
abbrev S5x1024 : Shape := ⟨2, ![5, 1024]⟩
abbrev S1024x1024x128 : Shape := ⟨3, ![1024, 1024, 128]⟩
abbrev S64x5 : Shape := ⟨2, ![64, 5]⟩
abbrev S5x128 : Shape := ⟨2, ![5, 128]⟩
abbrev S64x128x128 : Shape := ⟨3, ![64, 128, 128]⟩
abbrev S64x1 : Shape := ⟨2, ![64, 1]⟩
abbrev S1x128 : Shape := ⟨2, ![1, 128]⟩
abbrev S64x128 : Shape := ⟨2, ![64, 128]⟩
abbrev S1x1x66 : Shape := ⟨3, ![1, 1, 66]⟩
abbrev S1x1x6 : Shape := ⟨3, ![1, 1, 6]⟩
abbrev S64x128x1 : Shape := ⟨3, ![64, 128, 1]⟩
abbrev S64x128x66 : Shape := ⟨3, ![64, 128, 66]⟩
abbrev S64x128x6 : Shape := ⟨3, ![64, 128, 6]⟩
abbrev S64x128x7 : Shape := ⟨3, ![64, 128, 7]⟩
abbrev S66x128 : Shape := ⟨2, ![66, 128]⟩
abbrev S7x128 : Shape := ⟨2, ![7, 128]⟩
abbrev S8192x66 : Shape := ⟨2, ![8192, 66]⟩
abbrev S8192x7 : Shape := ⟨2, ![8192, 7]⟩
abbrev S8192x128 : Shape := ⟨2, ![8192, 128]⟩
abbrev S1x1024x1024x128 : Shape := ⟨4, ![1, 1024, 1024, 128]⟩

abbrev nBuf : Space → Nat
  | .hbm => 20
  | .vmem => 7
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x1, .i32⟩
  | .hbm, ⟨13, _⟩ => ⟨S1024x1, .i32⟩
  | .hbm, ⟨14, _⟩ => ⟨S1024x1, .i32⟩
  | .hbm, ⟨15, _⟩ => ⟨S1024x1, .i32⟩
  | .hbm, ⟨16, _⟩ => ⟨S1024x5, .i32⟩
  | .hbm, ⟨17, _⟩ => ⟨S5x1024, .i32⟩
  | .hbm, ⟨18, _⟩ => ⟨S1024x1024x128, .f32⟩
  | .hbm, ⟨19, _⟩ => ⟨S1x1024x1024x128, .f32⟩
  | .local _ .vmem, ⟨0, _⟩ => ⟨S64x5, .i32⟩
  | .local _ .vmem, ⟨1, _⟩ => ⟨S64x5, .i32⟩
  | .local _ .vmem, ⟨2, _⟩ => ⟨S5x128, .i32⟩
  | .local _ .vmem, ⟨3, _⟩ => ⟨S5x128, .i32⟩
  | .local _ .vmem, ⟨4, _⟩ => ⟨S139x128, .f32⟩
  | .local _ .vmem, ⟨5, _⟩ => ⟨S64x128x128, .f32⟩
  | .local _ .vmem, ⟨6, _⟩ => ⟨S64x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x5 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S139x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x1024_S1024 : S1x1024.ShapeCasts S1024
  bcast_S1024_S1024x1_0 : S1024.BroadcastsInDim S1024x1 (![0] : Fin 1 → Fin S1024x1.rank)
  concatenates_S1024x1_S1024x1_S1024x1_S1024x1_S1024x1_S1024x5_d1 : Shape.Concatenates [S1024x1, S1024x1, S1024x1, S1024x1, S1024x1] S1024x5 1
  transposes_S1024x5_S5x1024_1_0 : S1024x5.Transposes [1, 0] S5x1024
  inb_S64x5_S64x5_0_0 : ∀ a, (![0, 0] : Fin 2 → Nat) a + S64x5.size a ≤ S64x5.size a
  h_S64x5 : 0 < S64x5.numel
  shapeCasts_S64x5_S64x5 : S64x5.ShapeCasts S64x5
  inb_S5x128_S5x128_0_0 : ∀ a, (![0, 0] : Fin 2 → Nat) a + S5x128.size a ≤ S5x128.size a
  h_S5x128 : 0 < S5x128.numel
  shapeCasts_S5x128_S5x128 : S5x128.ShapeCasts S5x128
  slices_S64x5_o0_0_S64x1 : S64x5.Slices ![0, 0] S64x1
  slices_S64x5_o0_1_S64x1 : S64x5.Slices ![0, 1] S64x1
  slices_S64x5_o0_2_S64x1 : S64x5.Slices ![0, 2] S64x1
  slices_S64x5_o0_3_S64x1 : S64x5.Slices ![0, 3] S64x1
  slices_S64x5_o0_4_S64x1 : S64x5.Slices ![0, 4] S64x1
  slices_S5x128_o0_0_S1x128 : S5x128.Slices ![0, 0] S1x128
  slices_S5x128_o1_0_S1x128 : S5x128.Slices ![1, 0] S1x128
  slices_S5x128_o2_0_S1x128 : S5x128.Slices ![2, 0] S1x128
  slices_S5x128_o3_0_S1x128 : S5x128.Slices ![3, 0] S1x128
  slices_S5x128_o4_0_S1x128 : S5x128.Slices ![4, 0] S1x128
  broadcasts_S64x1_S64x128 : S64x1.Broadcasts S64x128
  broadcasts_S1x128_S64x128 : S1x128.Broadcasts S64x128
  iota_S1x1x66_d2_w32 : S1x1x66.Iotas .tc 32 [2]
  iota_S1x1x6_d2_w32 : S1x1x6.Iotas .tc 32 [2]
  shapeCasts_S64x128_S64x128x1 : S64x128.ShapeCasts S64x128x1
  broadcasts_S64x128x1_S64x128x66 : S64x128x1.Broadcasts S64x128x66
  broadcasts_S1x1x66_S64x128x66 : S1x1x66.Broadcasts S64x128x66
  natLt_1_32 : 1 < 32
  bitsLt_bf16_f32 : FTy.bits .bf16 < FTy.bits .f32
  broadcasts_S64x128x1_S64x128x6 : S64x128x1.Broadcasts S64x128x6
  broadcasts_S1x1x6_S64x128x6 : S1x1x6.Broadcasts S64x128x6
  concatenates_S64x128x1_S64x128x6_S64x128x7_d2 : Shape.Concatenates [S64x128x1, S64x128x6] S64x128x7 2
  inb_S139x128_S66x128_0_0 : ∀ a, (![0, 0] : Fin 2 → Nat) a + S66x128.size a ≤ S139x128.size a
  h_S66x128 : 0 < S66x128.numel
  inb_S139x128_S66x128_66_0 : ∀ a, (![66, 0] : Fin 2 → Nat) a + S66x128.size a ≤ S139x128.size a
  inb_S139x128_S7x128_132_0 : ∀ a, (![132, 0] : Fin 2 → Nat) a + S7x128.size a ≤ S139x128.size a
  h_S7x128 : 0 < S7x128.numel
  shapeCasts_S64x128x66_S8192x66 : S64x128x66.ShapeCasts S8192x66
  shapeCasts_S64x128x7_S8192x7 : S64x128x7.ShapeCasts S8192x7
  shapeCasts_S8192x128_S64x128x128 : S8192x128.ShapeCasts S64x128x128
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  shapeCasts_S1024x1024x128_S1x1024x1024x128 : S1024x1024x128.ShapeCasts S1x1024x1024x128
  dot_S8192x66_S66x128_S8192x128_1_0_0_1_n_n_wf : DotDims.WF S8192x66 S66x128 S8192x128 [1] [0] [0] [1] [] []
  dot_S8192x7_S7x128_S8192x128_1_0_0_1_n_n_wf : DotDims.WF S8192x7 S7x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x5.size a ≤ S1024x5.size a
  hwx0_0 : ∀ i : grid0.Coords, EltTy.bits .i32 = 32 ∨ (Rect.block (s := S1024x5) S64x5.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x1024.size a
  hwx0_1 : ∀ i : grid0.Coords, EltTy.bits .i32 = 32 ∨ (Rect.block (s := S5x1024) S5x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S139x128.size a ≤ S139x128.size a
  hwx0_2 : ∀ i : grid0.Coords, EltTy.bits .f32 = 32 ∨ (Rect.block (s := S139x128) S139x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x128.size a ≤ S1024x1024x128.size a
  hwx0_3 : ∀ i : grid0.Coords, EltTy.bits .f32 = 32 ∨ (Rect.block (s := S1024x1024x128) S64x128x128.size (cc0_transform_3 i) (hinb0_3 i)).WholeWords (EltTy.packing .f32)

variable [Facts₀]

def dot_S8192x66_S66x128_S8192x128_1_0_0_1_n_n : DotDims S8192x66 S66x128 S8192x128 where
  lhsContracting := [1]
  rhsContracting := [0]
  lhsNonContracting := [0]
  rhsNonContracting := [1]
  lhsBatch := []
  rhsBatch := []
  wf := dot_S8192x66_S66x128_S8192x128_1_0_0_1_n_n_wf
def dot_S8192x7_S7x128_S8192x128_1_0_0_1_n_n : DotDims S8192x7 S7x128 S8192x128 where
  lhsContracting := [1]
  rhsContracting := [0]
  lhsNonContracting := [0]
  rhsNonContracting := [1]
  lhsBatch := []
  rhsBatch := []
  wf := dot_S8192x7_S7x128_S8192x128_1_0_0_1_n_n_wf

abbrev win0_0 : Pipeline.Window sig grid0 :=
  Pipeline.Window.ofSpec (Memref.whole main_v10) S64x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S139x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x1024 : Shape := ⟨2, ![1, 1024]⟩
abbrev S139x128 : Shape := ⟨2, ![139, 128]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S66x128 : Shape := ⟨2, ![66, 128]⟩
abbrev S1x128 : Shape := ⟨2, ![1, 128]⟩
abbrev S128 : Shape := ⟨1, ![128]⟩
abbrev S6x128 : Shape := ⟨2, ![6, 128]⟩
abbrev S1x1024x1024x1 : Shape := ⟨4, ![1, 1024, 1024, 1]⟩
abbrev S1x1024x1024x128 : Shape := ⟨4, ![1, 1024, 1024, 128]⟩
abbrev S1x1x1x128 : Shape := ⟨4, ![1, 1, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1x1024x1, .i32⟩
  | .hbm, ⟨7, _⟩ => ⟨S1x1x1024, .i32⟩
  | .hbm, ⟨8, _⟩ => ⟨S1x1024x1024, .i32⟩
  | .hbm, ⟨9, _⟩ => ⟨S1x1024x1024, .i32⟩
  | .hbm, ⟨10, _⟩ => ⟨S1x1024x1024, .i1⟩
  | .hbm, ⟨11, _⟩ => ⟨S1x1024x1, .i32⟩
  | .hbm, ⟨12, _⟩ => ⟨S1x1x1024, .i32⟩
  | .hbm, ⟨13, _⟩ => ⟨S1x1024x1024, .i32⟩
  | .hbm, ⟨14, _⟩ => ⟨S1x1024x1024, .i32⟩
  | .hbm, ⟨15, _⟩ => ⟨S1x1024x1024, .i1⟩
  | .hbm, ⟨16, _⟩ => ⟨S1x1024x1, .i32⟩
  | .hbm, ⟨17, _⟩ => ⟨S1x1x1024, .i32⟩
  | .hbm, ⟨18, _⟩ => ⟨S1x1024x1024, .i32⟩
  | .hbm, ⟨19, _⟩ => ⟨S1x1024x1024, .i32⟩
  | .hbm, ⟨20, _⟩ => ⟨S1x1024x1024, .i1⟩
  | .hbm, ⟨21, _⟩ => ⟨S1x1024x1, .i32⟩
  | .hbm, ⟨22, _⟩ => ⟨S1x1x1024, .i32⟩
  | .hbm, ⟨23, _⟩ => ⟨S1x1024x1024, .i32⟩
  | .hbm, ⟨24, _⟩ => ⟨S1x1024x1024, .i32⟩
  | .hbm, ⟨25, _⟩ => ⟨S1x1024x1024, .i32⟩
  | .hbm, ⟨26, _⟩ => ⟨S_, .i32⟩
  | .hbm, ⟨27, _⟩ => ⟨S1x1024x1024, .i32⟩
  | .hbm, ⟨28, _⟩ => ⟨S1x1024x1024, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x1024x1024, .i32⟩
  | .hbm, ⟨33, _⟩ => ⟨S1x1024x1024, .i32⟩
  | .hbm, ⟨34, _⟩ => ⟨S_, .i32⟩
  | .hbm, ⟨35, _⟩ => ⟨S1x1024x1024, .i32⟩
  | .hbm, ⟨36, _⟩ => ⟨S1x1024x1024, .i32⟩
  | .hbm, ⟨37, _⟩ => ⟨S_, .i32⟩
  | .hbm, ⟨38, _⟩ => ⟨S_, .i32⟩
  | .hbm, ⟨39, _⟩ => ⟨S1x1024x1024, .i32⟩
  | .hbm, ⟨40, _⟩ => ⟨S1x1024x1024, .i32⟩
  | .hbm, ⟨41, _⟩ => ⟨S1x1024x1024, .i1⟩
  | .hbm, ⟨42, _⟩ => ⟨S1x1024x1, .i32⟩
  | .hbm, ⟨43, _⟩ => ⟨S1x1x1024, .i32⟩
  | .hbm, ⟨44, _⟩ => ⟨S1x1024x1024, .i32⟩
  | .hbm, ⟨45, _⟩ => ⟨S1x1024x1024, .i32⟩
  | .hbm, ⟨46, _⟩ => ⟨S1x1024x1024, .i32⟩
  | .hbm, ⟨47, _⟩ => ⟨S_, .i32⟩
  | .hbm, ⟨48, _⟩ => ⟨S1x1024x1024, .i32⟩
  | .hbm, ⟨49, _⟩ => ⟨S1x1024x1024, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1024x1024, .i32⟩
  | .hbm, ⟨54, _⟩ => ⟨S1x1024x1024, .i32⟩
  | .hbm, ⟨55, _⟩ => ⟨S_, .i32⟩
  | .hbm, ⟨56, _⟩ => ⟨S1x1024x1024, .i32⟩
  | .hbm, ⟨57, _⟩ => ⟨S1x1024x1024, .i32⟩
  | .hbm, ⟨58, _⟩ => ⟨S_, .i32⟩
  | .hbm, ⟨59, _⟩ => ⟨S_, .i32⟩
  | .hbm, ⟨60, _⟩ => ⟨S1x1024x1024, .i32⟩
  | .hbm, ⟨61, _⟩ => ⟨S1x1024x1024, .i32⟩
  | .hbm, ⟨62, _⟩ => ⟨S1x1024x1, .i32⟩
  | .hbm, ⟨63, _⟩ => ⟨S1x1x1024, .i32⟩
  | .hbm, ⟨64, _⟩ => ⟨S1x1024x1024, .i32⟩
  | .hbm, ⟨65, _⟩ => ⟨S1x1024x1024, .i32⟩
  | .hbm, ⟨66, _⟩ => ⟨S1x1024x1024, .i32⟩
  | .hbm, ⟨67, _⟩ => ⟨S_, .i32⟩
  | .hbm, ⟨68, _⟩ => ⟨S1x1024x1024, .i32⟩
  | .hbm, ⟨69, _⟩ => ⟨S1x1024x1024, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x1024x1024, .i32⟩
  | .hbm, ⟨74, _⟩ => ⟨S1x1024x1024, .i32⟩
  | .hbm, ⟨75, _⟩ => ⟨S_, .i32⟩
  | .hbm, ⟨76, _⟩ => ⟨S1x1024x1024, .i32⟩
  | .hbm, ⟨77, _⟩ => ⟨S1x1024x1024, .i32⟩
  | .hbm, ⟨78, _⟩ => ⟨S_, .i32⟩
  | .hbm, ⟨79, _⟩ => ⟨S_, .i32⟩
  | .hbm, ⟨80, _⟩ => ⟨S1x1024x1024, .i32⟩
  | .hbm, ⟨81, _⟩ => ⟨S1x1024x1024, .i32⟩
  | .hbm, ⟨82, _⟩ => ⟨S66x128, .f32⟩
  | .hbm, ⟨83, _⟩ => ⟨S66x128, .f32⟩
  | .hbm, ⟨84, _⟩ => ⟨S1x128, .f32⟩
  | .hbm, ⟨85, _⟩ => ⟨S128, .f32⟩
  | .hbm, ⟨86, _⟩ => ⟨S6x128, .f32⟩
  | .hbm, ⟨87, _⟩ => ⟨S_, .i32⟩
  | .hbm, ⟨88, _⟩ => ⟨S1x1024x1024, .i32⟩
  | .hbm, ⟨89, _⟩ => ⟨S1x1024x1024, .i1⟩
  | .hbm, ⟨90, _⟩ => ⟨S_, .i32⟩
  | .hbm, ⟨91, _⟩ => ⟨S1x1024x1024, .i32⟩
  | .hbm, ⟨92, _⟩ => ⟨S1x1024x1024, .i32⟩
  | .hbm, ⟨93, _⟩ => ⟨S1x1024x1024, .i32⟩
  | .hbm, ⟨94, _⟩ => ⟨S1x1024x1024x1, .i32⟩
  | .hbm, ⟨95, _⟩ => ⟨S1x1024x1024x128, .f32⟩
  | .hbm, ⟨96, _⟩ => ⟨S_, .i32⟩
  | .hbm, ⟨97, _⟩ => ⟨S1x1024x1024, .i32⟩
  | .hbm, ⟨98, _⟩ => ⟨S1x1024x1024, .i1⟩
  | .hbm, ⟨99, _⟩ => ⟨S_, .i32⟩
  | .hbm, ⟨100, _⟩ => ⟨S1x1024x1024, .i32⟩
  | .hbm, ⟨101, _⟩ => ⟨S1x1024x1024, .i32⟩
  | .hbm, ⟨102, _⟩ => ⟨S1x1024x1024, .i32⟩
  | .hbm, ⟨103, _⟩ => ⟨S1x1024x1024x1, .i32⟩
  | .hbm, ⟨104, _⟩ => ⟨S1x1024x1024x128, .f32⟩
  | .hbm, ⟨105, _⟩ => ⟨S1x1024x1024x128, .f32⟩
  | .hbm, ⟨106, _⟩ => ⟨S1x1024x1024x1, .i1⟩
  | .hbm, ⟨107, _⟩ => ⟨S1x1024x1024x1, .f32⟩
  | .hbm, ⟨108, _⟩ => ⟨S1x1x1x128, .f32⟩
  | .hbm, ⟨109, _⟩ => ⟨S1x1024x1024x128, .f32⟩
  | .hbm, ⟨110, _⟩ => ⟨S1x1024x1024x128, .f32⟩
  | .hbm, ⟨111, _⟩ => ⟨S1x1024x1024x128, .f32⟩
  | .hbm, ⟨112, _⟩ => ⟨S1x1024x1024x128, .f32⟩
  | .hbm, ⟨113, _⟩ => ⟨S_, .i32⟩
  | .hbm, ⟨114, _⟩ => ⟨S1x1024x1024, .i32⟩
  | .hbm, ⟨115, _⟩ => ⟨S1x1024x1024, .i1⟩
  | .hbm, ⟨116, _⟩ => ⟨S_, .i32⟩
  | .hbm, ⟨117, _⟩ => ⟨S1x1024x1024, .i32⟩
  | .hbm, ⟨118, _⟩ => ⟨S1x1024x1024, .i32⟩
  | .hbm, ⟨119, _⟩ => ⟨S1x1024x1024, .i32⟩
  | .hbm, ⟨120, _⟩ => ⟨S1x1024x1024x1, .i32⟩
  | .hbm, ⟨121, _⟩ => ⟨S1x1024x1024x128, .f32⟩
  | .hbm, ⟨122, _⟩ => ⟨S1x1024x1024x128, .f32⟩
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v22 : Ref sig .tc := ⟨.hbm, 36, rfl⟩
abbrev main_c_2 : Ref sig .tc := ⟨.hbm, 37, rfl⟩
abbrev main_call1_v0 : Ref sig .tc := ⟨.hbm, 38, rfl⟩
abbrev main_call1_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v32 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_c_9 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v41 : Ref sig .tc := ⟨.hbm, 77, rfl⟩
abbrev main_c_10 : Ref sig .tc := ⟨.hbm, 78, rfl⟩
abbrev main_call5_v0 : Ref sig .tc := ⟨.hbm, 79, rfl⟩
abbrev main_call5_v1 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_11 : Ref sig .tc := ⟨.hbm, 87, rfl⟩
abbrev main_v48 : Ref sig .tc := ⟨.hbm, 88, rfl⟩
abbrev main_v49 : Ref sig .tc := ⟨.hbm, 89, rfl⟩
abbrev main_c_12 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_13 : Ref sig .tc := ⟨.hbm, 96, rfl⟩
abbrev main_v55 : Ref sig .tc := ⟨.hbm, 97, rfl⟩
abbrev main_v56 : Ref sig .tc := ⟨.hbm, 98, rfl⟩
abbrev main_c_14 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_15 : Ref sig .tc := ⟨.hbm, 113, rfl⟩
abbrev main_v70 : Ref sig .tc := ⟨.hbm, 114, rfl⟩
abbrev main_v71 : Ref sig .tc := ⟨.hbm, 115, rfl⟩
abbrev main_c_16 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  slices_S139x128_S66x128_0_0 : S139x128.Slices ![0, 0] S66x128
  slices_S139x128_S66x128_66_0 : S139x128.Slices ![66, 0] S66x128
  slices_S139x128_S1x128_132_0 : S139x128.Slices ![132, 0] S1x128
  shapeCasts_S1x128_S128 : S1x128.ShapeCasts S128
  slices_S139x128_S6x128_133_0 : S139x128.Slices ![133, 0] S6x128
  bcast_S1x1024x1024_S1x1024x1024x1_0_1_2 : S1x1024x1024.BroadcastsInDim S1x1024x1024x1 (![0, 1, 2] : Fin 3 → Fin S1x1024x1024x1.rank)
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  gather_S66x128_S1x1024x1024x1_S1x1024x1024x128_3_0_n_n_0_3_1128_wf : GatherDims.WF S66x128 S1x1024x1024x1 S1x1024x1024x128 [3] [0] [] [0] [] 3 ![1, 128]
  gather_S6x128_S1x1024x1024x1_S1x1024x1024x128_3_0_n_n_0_3_1128_wf : GatherDims.WF S6x128 S1x1024x1024x1 S1x1024x1024x128 [3] [0] [] [0] [] 3 ![1, 128]

variable [Facts₀]

def gather_S66x128_S1x1024x1024x1_S1x1024x1024x128_3_0_n_n_0_3_1128 : GatherDims S66x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S66x128_S1x1024x1024x1_S1x1024x1024x128_3_0_n_n_0_3_1128_wf
def gather_S6x128_S1x1024x1024x1_S1x1024x1024x128_3_0_n_n_0_3_1128 : GatherDims S6x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S6x128_S1x1024x1024x1_S1x1024x1024x128_3_0_n_n_0_3_1128_wf

class Facts : Prop extends Facts₀ where

variable [Facts]
-- ==== Proof.Spec.lean ====
/-
  The relative-position embedding, cell by cell.

  For a pair of tokens (p, q) the five integer features of p and of q decide three bucket indices:
  the clipped residue offset (or the "different chain" bucket 65), the clipped token offset (or 65 unless the
  chain and the residue agree), the clipped symmetry-copy offset (or the "different entity" bucket 5); and one bit,
  "same entity". The embedding of the pair at output channel k is the sum of four rows of the weight matrix read at
  column k: row dRes, row 66 + dTok, row 132 scaled by the bit, row 133 + dChain. All integer arithmetic is 32-bit
  two's complement, as both programs compute it; the sum is taken in the extended reals.
-/
import Idealize.ShloMosaic.PureOps
import Idealize.ShloMosaic.PureOps.Ideal
import Idealize.ShloMosaic.Lib.ValueIdx

noncomputable section

namespace Cert.RelPos

open Idealize.ShloMosaic Idealize.ShloMosaic.ValueIdx

/-- `clip (x - y + off, 0, hi)` on 32-bit signed words: first the lower clamp, then the upper one. -/
def relClip (off hi x y : BitVec 32) : BitVec 32 :=
  IntOp.minsi hi (IntOp.maxsi 0#32 (IntOp.addi (IntOp.subi x y) off))

/-- Residue bucket: the clipped residue offset when the chains agree, else 65. -/
def dRes (ap rp aq rq : BitVec 32) : BitVec 32 :=
  Scalar.select (IntOp.cmpi .eq ap aq) (relClip 32#32 64#32 rp rq) 65#32

/-- Token bucket: the clipped token offset when chain and residue both agree, else 65. -/
def dTok (ap rp tp aq rq tq : BitVec 32) : BitVec 32 :=
  Scalar.select (IntOp.andi (IntOp.cmpi .eq ap aq) (IntOp.cmpi .eq rp rq)) (relClip 32#32 64#32 tp tq) 65#32

/-- Chain bucket: the clipped symmetry-copy offset when the entities agree, else 5. -/
def dChain (ep sp eq sq : BitVec 32) : BitVec 32 :=
  Scalar.select (IntOp.cmpi .eq ep eq) (relClip 2#32 4#32 sp sq) 5#32

/-- The "same entity" bit. -/
def sameEnt (ep eq : BitVec 32) : BitVec 1 := IntOp.cmpi .eq ep eq

/-- A bit as an extended real: 0 or 1. -/
def bitVal (b : BitVec 1) : EReal := ((b.toNat : ℝ) : EReal)

/-- One cell of the embedding from the ten features (a = chain, r = residue, e = entity, s = symmetry copy, t = token;
    suffix p for the row token, q for the column token) and one column `w` of the weight matrix, rows numbered by ℕ. -/
def cell (ap rp ep sp tp aq rq eq sq tq : BitVec 32) (w : ℕ → EReal) : EReal :=
  w (dRes ap rp aq rq).toNat + w (66 + (dTok ap rp tp aq rq tq).toNat)
    + bitVal (sameEnt ep eq) * w 132 + w (133 + (dChain ep sp eq sq).toNat)

/-- Column `k` of a 139 × 128 matrix, its rows numbered by ℕ (zero past the last row, which no bucket reaches). -/
def wAt (W : FVec Ideal (⟨2, ![139, 128]⟩ : Shape) .f32) (k : Fin 128) (r : ℕ) : EReal :=
  if h : r < 139 then W (ix2 (⟨r, h⟩ : Fin 139) k) else 0

theorem wAt_of_lt (W : FVec Ideal (⟨2, ![139, 128]⟩ : Shape) .f32) (k : Fin 128) (r : ℕ) (h : r < 139) :
    wAt W k r = W (ix2 (⟨r, h⟩ : Fin 139) k) := dif_pos h

/-- The cell for tokens `P`, `Q` and channel `k`, read off the five feature rows and the weights. -/
def cellAt (a r e s t : IVec (⟨2, ![1, 1024]⟩ : Shape) 32) (W : FVec Ideal (⟨2, ![139, 128]⟩ : Shape) .f32)
    (P Q : Fin 1024) (k : Fin 128) : EReal :=
  cell (a (ix2 (0 : Fin 1) P)) (r (ix2 (0 : Fin 1) P)) (e (ix2 (0 : Fin 1) P)) (s (ix2 (0 : Fin 1) P)) (t (ix2 (0 : Fin 1) P))
    (a (ix2 (0 : Fin 1) Q)) (r (ix2 (0 : Fin 1) Q)) (e (ix2 (0 : Fin 1) Q)) (s (ix2 (0 : Fin 1) Q)) (t (ix2 (0 : Fin 1) Q))
    (wAt W k)

/-- The whole embedding, [1, 1024, 1024, 128]. -/
def G (a r e s t : IVec (⟨2, ![1, 1024]⟩ : Shape) 32) (W : FVec Ideal (⟨2, ![139, 128]⟩ : Shape) .f32) :
    FVec Ideal (⟨4, ![1, 1024, 1024, 128]⟩ : Shape) .f32 :=
  fun i => cellAt a r e s t W ⟨(i 1).val, (i 1).isLt⟩ ⟨(i 2).val, (i 2).isLt⟩ ⟨(i 3).val, (i 3).isLt⟩

theorem G_apply (a r e s t : IVec (⟨2, ![1, 1024]⟩ : Shape) 32) (W : FVec Ideal (⟨2, ![139, 128]⟩ : Shape) .f32)
    (z : Fin 1) (P Q : Fin 1024) (k : Fin 128) :
    G a r e s t W (ix4 z P Q k) = cellAt a r e s t W P Q k := rfl

/-! ## The buckets are in range -/

/-- A signed word between 0 and a small bound is that number, unsigned. -/
theorem toNat_le_of_toInt (x : BitVec 32) (n : ℕ) (h0 : 0 ≤ x.toInt) (h1 : x.toInt ≤ n) : x.toNat ≤ n := by
  have := x.isLt
  rw [BitVec.toInt_eq_toNat_cond] at h0 h1
  split_ifs at h0 h1 <;> omega

/-- The clamp lands between 0 and its upper bound, as signed words. -/
theorem relClip_bounds (off hi x y : BitVec 32) (hhi : 0 ≤ hi.toInt) :
    0 ≤ (relClip off hi x y).toInt ∧ (relClip off hi x y).toInt ≤ hi.toInt := by
  unfold relClip IntOp.minsi IntOp.maxsi
  have h0 : (0#32 : BitVec 32).toInt = 0 := by decide
  split_ifs with h1 h2 h2
  all_goals simp only [BitVec.slt, decide_eq_true_eq, not_lt, h0] at *
  all_goals omega

theorem relClip_toNat_le (off hi x y : BitVec 32) (n : ℕ) (hhi : hi.toInt = n) :
    (relClip off hi x y).toNat ≤ n := by
  have h := relClip_bounds off hi x y (by omega)
  exact toNat_le_of_toInt _ n h.1 (by omega)

theorem select_toNat_lt (c : BitVec 1) (x y : BitVec 32) (n : ℕ) (hx : x.toNat < n) (hy : y.toNat < n) :
    (Scalar.select c x y).toNat < n := by
  unfold Scalar.select; split_ifs <;> assumption

theorem dRes_lt (ap rp aq rq : BitVec 32) : (dRes ap rp aq rq).toNat < 66 :=
  select_toNat_lt _ _ _ 66 (Nat.lt_of_le_of_lt (relClip_toNat_le 32#32 64#32 rp rq 64 (by decide)) (by decide)) (by decide)

theorem dTok_lt (ap rp tp aq rq tq : BitVec 32) : (dTok ap rp tp aq rq tq).toNat < 66 :=
  select_toNat_lt _ _ _ 66 (Nat.lt_of_le_of_lt (relClip_toNat_le 32#32 64#32 tp tq 64 (by decide)) (by decide)) (by decide)

theorem dChain_lt (ep sp eq sq : BitVec 32) : (dChain ep sp eq sq).toNat < 6 :=
  select_toNat_lt _ _ _ 6 (Nat.lt_of_le_of_lt (relClip_toNat_le 2#32 4#32 sp sq 4 (by decide)) (by decide)) (by decide)

/-- A word below 2^31 is not negative as a signed word. -/
theorem not_slt_zero_of_toNat_lt (x : BitVec 32) (n : ℕ) (h : x.toNat < n) (hn : n ≤ 2147483648) : ¬ x.slt 0#32 = true := by
  have h0 : (0#32 : BitVec 32).toInt = 0 := by decide
  simp only [BitVec.slt, decide_eq_true_eq, not_lt, h0]
  rw [BitVec.toInt_eq_toNat_cond]
  split_ifs <;> omega

/-! ## A one-hot row picks its entry -/

/-- The sum of a family against the indicator of one index is the entry at that index (0 · x = 0 and 1 · x = x hold
    for every extended real, so nothing is asked of the entries). -/
theorem onehot_sum {n : ℕ} (d : ℕ) (hd : d < n) (w : Fin n → EReal) :
    ∑ j : Fin n, (if j.val = d then (1 : EReal) else 0) * w j = w ⟨d, hd⟩ := by
  rw [Finset.sum_eq_single (⟨d, hd⟩ : Fin n)]
  · rw [if_pos rfl, one_mul]
  · intro j _ hj
    rw [if_neg (fun h => hj (Fin.ext h)), zero_mul]
  · intro h; exact absurd (Finset.mem_univ _) h

/-- A bit is 0 or 1. -/
theorem bitVal_one : bitVal 1#1 = 1 := by simp [bitVal]
theorem bitVal_zero : bitVal 0#1 = 0 := by simp [bitVal]

end Cert.RelPos

end
-- ==== Proof.KDefs.lean ====
/-
  The one pipelined call of the kernel program: what the region finds in each array when it is entered, each
  window's block at a grid point, what the kernel body leaves in the output block as a function of its three input
  blocks, and the proof data of the pipeline built from these.

  The grid is 16 × 8. At point (i, j) the body is handed rows 64 i … 64 i + 63 of the stacked row features (a 64 × 5
  block), columns 128 j … 128 j + 127 of the stacked column features (a 5 × 128 block) and the whole 139 × 128 weight
  matrix, and it writes the 64 × 128 × 128 block (i, j, 0) of the result. It stores a first matrix product, reads it
  back, adds a second, stores, reads back, adds a third, stores: the block ends as the sum of the three products.
-/
import proofs.«423344_j87883620811381_3_alg».proof.Proof.Gen.Kernel.Launch
import proofs.«423344_j87883620811381_3_alg».proof.Proof.Gen.Kernel.Skeleton
import proofs.«423344_j87883620811381_3_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## The arrays when the region is entered -/

/-- Core `c`'s buffer contents when the region is entered: the launch memory after the twelve host operations that
    reshape, broadcast, stack and transpose the five feature rows. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole 64 × 5 block of row features. -/
abbrev rRow : Rect S64x5 := Rect.unit (s := S64x5) ![0, 0] S64x5.size inb_S64x5_S64x5_0_0
/-- The whole 5 × 128 block of column features. -/
abbrev rCol : Rect S5x128 := Rect.unit (s := S5x128) ![0, 0] S5x128.size inb_S5x128_S5x128_0_0
/-- Rows 0 … 65 of the weights: the residue buckets. -/
abbrev rW0 : Rect S139x128 := Rect.unit (s := S139x128) ![0, 0] S66x128.size inb_S139x128_S66x128_0_0
/-- Rows 66 … 131: the token buckets. -/
abbrev rW1 : Rect S139x128 := Rect.unit (s := S139x128) ![66, 0] S66x128.size inb_S139x128_S66x128_66_0
/-- Rows 132 … 138: the entity bit and the chain buckets. -/
abbrev rW2 : Rect S139x128 := Rect.unit (s := S139x128) ![132, 0] S7x128.size inb_S139x128_S7x128_132_0
/-- The whole output block. -/
abbrev rOut : Rect S64x128x128 := Rect.unit (s := S64x128x128) ![0, 0, 0] S64x128x128.size inb_S64x128x128_S64x128x128_0_0_0

/-! ## What the body leaves in the output block -/

/-- The output block after the body, from the three input blocks: the residue product, plus the token product, plus the
    entity-and-chain product, each stored value read back before the next is added. -/
def bodyOut (x0 : Vec F S64x5 .i32) (x1 : Vec F S5x128 .i32) (x2 : Vec F S139x128 .f32) : Vec F S64x128x128 .f32 :=
  k0_pay3 (F := F) (k0_pay15 (F := F) (View.ld x2 rW2))
    (k0_pay17 (F := F) (k0_pay7 (F := F) (View.ld x0 rRow)) (k0_pay9 (F := F) (View.ld x1 rCol))
      (k0_pay11 (F := F) (View.ld x0 rRow) (View.ld x1 rCol)))
    (k0_pay2 (F := F) (k0_pay14 (F := F) (View.ld x2 rW1)) (k0_pay16 (F := F) (k0_pay13 (F := F) (View.ld x0 rRow) (View.ld x1 rCol)))
      (k0_pay1 (F := F) (k0_pay18 (F := F) (k0_pay12 (F := F) (View.ld x0 rRow) (View.ld x1 rCol)) (View.ld x2 rW0))))

/-! ## The pipeline's proof data -/

/-- The proof data of the pipeline on core `c`: the arrays as the region finds them; after the body at point `t` each
    input's buffer still at its block and the output's at `bodyOut` of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => bodyOut (F := F) (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = bodyOut (F := F) (iblk m c 0 t) (iblk m c 1 t) (iblk m c 2 t) := by dsimp only [dats]

end Cert.Kernel.Hand

end
-- ==== Proof.KFrame.lean ====
/-
  The frame of the relative-position kernel's program: @main is twelve host operations (five reshapes, five
  broadcasts, a five-way stack, a transpose), one pipelined region, and one last reshape.

  Host side. The operations before the region write only the twelve intermediate arrays, so the six arguments reach
  the region as launched; the reshape after it writes only the final result, so whatever the region leaves in its
  four arrays and whatever bypasses it is still there at the end.

  Body. At every grid point the kernel reads its three input blocks, stores a first product into the output block,
  reads the block back and adds a second product, stores, reads back and adds a third, stores. A read of the whole
  block after a store of the whole block is the stored value, so the block ends as the composition of the three
  payloads over the input blocks, and the inputs are untouched.
-/
import proofs.«423344_j87883620811381_3_alg».proof.Proof.KDefs
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations write -/

/-- The arrays the operations before the region write: the twelve intermediates, none of them an argument. -/
abbrev written0 : List (Ref sig .tc) :=
  [main_v0, main_v1, main_v2, main_v3, main_v4, main_v5, main_v6, main_v7, main_v8, main_v9, main_v10, main_v11]

/-- The one array the operation after the region writes: the final result. -/
abbrev written1 : List (Ref sig .tc) := [main_v13]

/-- A single result buffer that is on a list is inside the list's set of device buffers. -/
theorem result_sub {Ws : List (Ref sig .tc)} {y : Ref sig .tc} (h : y ∈ Ws) :
    ({Proc.devRef (τ := τ) .tc y} : Finset (DevRef τ sig)) ⊆ (Ws.map (Proc.devRef (τ := τ) .tc)).toFinset :=
  Finset.singleton_subset_iff.mpr (List.mem_toFinset.mpr (List.mem_map_of_mem h))

/-- Every operation before the region writes one of the twelve intermediates. -/
theorem hostOps0_writes : (hostOps0 : List (HloOp τ sig (Elt F))).Forall fun op =>
    op.writes ⊆ (written0.map (Proc.devRef (τ := τ) .tc)).toFinset :=
  ⟨result_sub (y := main_v0) (by decide), result_sub (y := main_v1) (by decide), result_sub (y := main_v2) (by decide),
   result_sub (y := main_v3) (by decide), result_sub (y := main_v4) (by decide), result_sub (y := main_v5) (by decide),
   result_sub (y := main_v6) (by decide), result_sub (y := main_v7) (by decide), result_sub (y := main_v8) (by decide),
   result_sub (y := main_v9) (by decide), result_sub (y := main_v10) (by decide), result_sub (y := main_v11) (by decide)⟩

/-- The operation after the region writes the final result only. -/
theorem hostOps1_writes : (hostOps1 : List (HloOp τ sig (Elt F))).Forall fun op =>
    op.writes ⊆ (written1.map (Proc.devRef (τ := τ) .tc)).toFinset :=
  result_sub (y := main_v13) (by decide)

/-- None of them allocates. -/
theorem hostOps0_fresh : (hostOps0 : List (HloOp τ sig (Elt F))).Forall fun op => op.fresh = ∅ :=
  ⟨rfl, rfl, rfl, rfl, rfl, rfl, rfl, rfl, rfl, rfl, rfl, rfl⟩
theorem hostOps1_fresh : (hostOps1 : List (HloOp τ sig (Elt F))).Forall fun op => op.fresh = ∅ := rfl

/-- A property of the reshape after the region holds of every operation of the one stretch after the region. -/
theorem of_last_reshape {p : HloOp τ sig (Elt F) → Prop}
    (h : p (StableHlo.reshape main_v12 main_v13 rfl shapeCasts_S1024x1024x128_S1x1024x1024x128)) :
    ∀ ops ∈ ([hostOps1] : List (List (HloOp τ sig (Elt F)))), ∀ op ∈ ops, p op := by
  intro ops hops op hop
  rw [List.mem_singleton] at hops
  subst hops
  rw [List.mem_singleton] at hop
  subst hop
  exact h

/-! ## @main around the region -/

/-- @main is the host operations before the region, the region, and the reshape after it: run from the launch
    memory it reaches the region with the arrays at `V`, and continues with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The reshape after the region touches unscoped TensorCore buffers only: arrays of the pipeline or buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact of_last_reshape (p := fun op => op.bufs ⊆ Pipeline.ucRefs τ sig) (Pipeline.sub_ucRefs _ hostOps1_sub)

/-- It allocates nothing. -/
theorem sfx_fresh : ∀ ops ∈ ([hostOps1] : List (List (HloOp τ sig (Elt F)))), ∀ op ∈ ops, op.fresh = ∅ :=
  of_last_reshape (p := fun op => op.fresh = ∅) rfl

/-- It writes the final result, which is none of the pipeline's four arrays. -/
theorem sfx_keeps : ∀ ops ∈ ([hostOps1] : List (List (HloOp τ sig (Elt F)))), ∀ op ∈ ops,
    ∀ w, Proc.devRef .tc (Pipeline.arrRef spec0 w) ∉ op.writes :=
  of_last_reshape (p := fun op => ∀ w, Proc.devRef .tc (Pipeline.arrRef spec0 w) ∉ op.writes) fun w hw =>
    StableHlo.devRef_ne_of_ne ((by decide : ∀ w, Pipeline.arrRef spec0 w ≠ main_v13) w) (Finset.mem_singleton.mp hw)

/-! ## The arguments at the region's entry and at the end -/

/-- An array the operations before the region do not write reaches the region as launched. -/
theorem V_of_not_written (c : Dev nD) (b : Ref sig .tc) (hb : b ∉ written0) : V m c b = m ((c : Thread nD τ).loc b) :=
  StableHlo.after_of_writes_sub (W := written0) (List.flatten [hostOps0]) (fun b => m (c, b))
    (show List.Forall _ (hostOps0 ++ []) by rw [List.append_nil]; exact hostOps0_writes) hb

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)
theorem V_main_arg5 (c : Dev nD) : V m c main_arg5 = m ((c : Thread nD τ).loc main_arg5) := V_of_not_written m c main_arg5 (by decide)

/-- An array that is neither the final result nor one of the pipeline's four arrays ends as it reached the region. -/
theorem W_of_bypass (dats : (p : Fin 1) → (c : Dev nD) → Dat τ (Elt F) Unit ℕ (UR sig nD τ) ℕ (cfgs p) c) (c : Dev nD)
    (b : Ref sig .tc) (hb : b ∉ written1) (ha : ∀ w, Pipeline.arrRef spec0 w ≠ b) :
    Pipeline.afterTail₀ cfgs dats 0 (V0 m) [hostOps1] c b = V m c b := by
  unfold Pipeline.afterTail₀
  rw [StableHlo.after_of_writes_sub (W := written1) (List.flatten [hostOps1]) _
      (show List.Forall _ (hostOps1 ++ []) by rw [List.append_nil]; exact hostOps1_writes) hb]
  exact Pipeline.withArrays_of_ne _ c (V0 m c) _ b ha

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_bypass m dats c main_arg0 (by decide) (by decide)).trans (V_main_arg0 m c)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_bypass m dats c main_arg1 (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_bypass m dats c main_arg2 (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_bypass m dats c main_arg3 (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_bypass m dats c main_arg4 (by decide) (by decide)).trans (V_main_arg4 m c)

/-- The weights are the region's third array, a staged input that is never written back: for proof data whose array there
    is the region-entry contents (`hA`), the region hands them on as it found them, the last reshape does not write them,
    and no operation before the region does either. -/
theorem W_main_arg5 (dats : (p : Fin 1) → (c : Dev nD) → Dat τ (Elt F) Unit ℕ (UR sig nD τ) ℕ (cfgs p) c) (c : Dev nD)
    (hA : (dats 0 c).A 2 = V m c (Pipeline.arrRef spec0 2)) :
    Pipeline.afterTail₀ cfgs dats 0 (V0 m) [hostOps1] c main_arg5 = m ((c : Thread nD τ).loc main_arg5) := by
  unfold Pipeline.afterTail₀
  rw [StableHlo.after_of_writes_sub (W := written1) (List.flatten [hostOps1]) _
      (show List.Forall _ (hostOps1 ++ []) by rw [List.append_nil]; exact hostOps1_writes) (by decide : main_arg5 ∉ written1)]
  exact ((Pipeline.withArrays_arr spec0 launch0.win.arr_inj c (V0 m c) _ 2).trans
    (((dats 0 c).arrAt_in 2 rfl _).trans hA)).trans (V_main_arg5 m c)

/-! ## The body's triple -/

/-- The origin of a rank-3 block, spelt as the kernel's accesses spell it. -/
theorem zeros3 : (![0, 0, 0] : Fin 3 → Nat) = fun _ => 0 := by
  funext a; fin_cases a <;> rfl

/-- A read of a whole block after a store of the whole block is the stored value, whatever was stored before it:
    the last store covers every index, so nothing of the earlier ones (or of the prior contents) is seen. -/
theorem readCov_whole_after_store {sig' : RefSig} {κ : Kind} {sp : Space} {S : Shape} {e : EltTy}
    (v : View sig' κ sp S e) {off : Fin S.rank → Nat} (hz : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, View.mem_set_unit_zero hz inb y⟩),
    View.canon_cons_unit_zero hz inb, View.ld_unit_zero hz inb]

set_option maxHeartbeats 1000000 in
/-- The kernel body on whole staging memrefs: from the three inputs' at read contents `x0`, `x1`, `x2` and the output's at
    anything, it runs to the continuation holding the inputs' as they were and the output's at `bodyOut x0 x1 x2`. The
    first read of the output block (before any store) is of unknown contents and is not used; each later read follows a
    store of the whole block and is that store's value. -/
theorem sound_kernel (c : Dev nD) (E : Set ℕ) (i : grid0.Coords)
    (arg2 : Memref sig .tc .vmem S64x5 .i32) (harg2 : arg2.IsWhole) (arg3 : Memref sig .tc .vmem S5x128 .i32) (harg3 : arg3.IsWhole)
    (arg4 : Memref sig .tc .vmem S139x128 .f32) (harg4 : arg4.IsWhole) (arg5 : Memref sig .tc .vmem S64x128x128 .f32) (harg5 : arg5.IsWhole)
    (x0 : Vec F S64x5 .i32) (x1 : Vec F S5x128 .i32) (x2 : Vec F S139x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (bodyOut (F := F) x0 x1 x2)) -∗ K ⟨⟩))
      ⊢ wp frame (wpE (defs₀ (F := F)) Variants.none c none) E (cc0__rel_pos_kernel i arg2 harg2 arg3 harg3 arg4 harg4 arg5 harg5) K := by
  simp only [cc0__rel_pos_kernel_eq_skeleton]; unfold cc0__rel_pos_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  rw [View.read_writes_eq_canon _ _ _
      (fun y => ⟨_, List.mem_cons_self, View.mem_set_unit_zero zeros3 inb_S64x128x128_S64x128x128_0_0_0 y⟩),
    View.canon_cons_unit_zero zeros3]
  sl_unfold_run_names
  dsimp only
  simp only [readCov_whole_after_store (S := S64x128x128) _ zeros3]
  rfl

/-! ## Each input's buffer when the body runs -/

/-- The row-feature window's current staging buffer holds its block at every point, fetched there or not: the body
    leaves it as found, and between two fetches the block index does not move. -/
theorem before0_0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t := fun t => by
    rw [after0_0]; unfold Dat.blockOf iblk; rw [A_eq]
  rw [(dats m 0 c).before_in_eq_fetched 0 rfl (fun _ => rfl) (fun _ _ _ => rfl) hkeep t d]
  unfold Dat.fetched Dat.blockOf iblk
  rw [A_eq]
  rfl

/-- The same for the column-feature window. -/
theorem before0_1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t := fun t => by
    rw [after0_1]; unfold Dat.blockOf iblk; rw [A_eq]
  rw [(dats m 0 c).before_in_eq_fetched 1 rfl (fun _ => rfl) (fun _ _ _ => rfl) hkeep t d]
  unfold Dat.fetched Dat.blockOf iblk
  rw [A_eq]
  rfl

/-- The same for the weights, fetched once. -/
theorem before0_2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t := fun t => by
    rw [after0_2]; unfold Dat.blockOf iblk; rw [A_eq]
  rw [(dats m 0 c).before_in_eq_fetched 2 rfl (fun _ => rfl) (fun _ _ _ => rfl) hkeep t d]
  unfold Dat.fetched Dat.blockOf iblk
  rw [A_eq]
  rfl

/-! ## The body obligation at a point -/

/-- What the body is handed at point `t`: the invariant, what the core owes, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it hands back: the same invariant and debt, and each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three inputs' buffers hold their blocks, the output's holds anything, so the body's
    triple applies at the three blocks; the invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]
  · iexact H0
  isplitl [H1]
  · iexact H1
  isplitl [H2]
  · iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The library's body obligation, at every point: its two conjunctions over the four windows written out. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with zero counters, every weakly fair execution of @main terminates, and at the end each of the
    pipeline's four arrays holds what the proof data compute for it and every other unscoped buffer what the last
    reshape leaves there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run read at the final result and at the six arguments. The result and the five feature rows bypass the
    region, so they end at what the last reshape leaves; the weights are a staged input of the region, never written,
    so they end as the region found them; and no host operation before the region writes an argument. -/
theorem run_named : θ_run defs (onTc (τ := τ) (main (F := F))) ⟨m, fun _ => 0, ρ⟩ (fun r => ∀ c : Dev nD,
      r.2.mem ((c.tc : Thread nD τ).loc main_v13) = Pipeline.afterTail₀ cfgs (dats m) 0 (V0 m) [hostOps1] c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v13 (Pipeline.mem_restRefs_of main_v13 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     (((h c).1 2).trans ((dats m 0 c).arrAt_in 2 rfl _)).trans ((A_eq m c 2).trans (V_main_arg5 m c))⟩) (run_main m ρ)

/-- THE FRAME: the program runs and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Hand

end
-- ==== Proof.KIDefs.lean ====
/-
  The one pipelined call of the kernel program: what the region finds in each array when it is entered, each
  window's block at a grid point, what the kernel body leaves in the output block as a function of its three input
  blocks, and the proof data of the pipeline built from these.

  The grid is 16 × 8. At point (i, j) the body is handed rows 64 i … 64 i + 63 of the stacked row features (a 64 × 5
  block), columns 128 j … 128 j + 127 of the stacked column features (a 5 × 128 block) and the whole 139 × 128 weight
  matrix, and it writes the 64 × 128 × 128 block (i, j, 0) of the result. It stores a first matrix product, reads it
  back, adds a second, stores, reads back, adds a third, stores: the block ends as the sum of the three products.
-/
import proofs.«423344_j87883620811381_3_alg».proof.Proof.Gen.KernelIdeal.Launch
import proofs.«423344_j87883620811381_3_alg».proof.Proof.Gen.KernelIdeal.Skeleton
import proofs.«423344_j87883620811381_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-! ## The arrays when the region is entered -/

/-- Core `c`'s buffer contents when the region is entered: the launch memory after the twelve host operations that
    reshape, broadcast, stack and transpose the five feature rows. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole 64 × 5 block of row features. -/
abbrev rRow : Rect S64x5 := Rect.unit (s := S64x5) ![0, 0] S64x5.size inb_S64x5_S64x5_0_0
/-- The whole 5 × 128 block of column features. -/
abbrev rCol : Rect S5x128 := Rect.unit (s := S5x128) ![0, 0] S5x128.size inb_S5x128_S5x128_0_0
/-- Rows 0 … 65 of the weights: the residue buckets. -/
abbrev rW0 : Rect S139x128 := Rect.unit (s := S139x128) ![0, 0] S66x128.size inb_S139x128_S66x128_0_0
/-- Rows 66 … 131: the token buckets. -/
abbrev rW1 : Rect S139x128 := Rect.unit (s := S139x128) ![66, 0] S66x128.size inb_S139x128_S66x128_66_0
/-- Rows 132 … 138: the entity bit and the chain buckets. -/
abbrev rW2 : Rect S139x128 := Rect.unit (s := S139x128) ![132, 0] S7x128.size inb_S139x128_S7x128_132_0
/-- The whole output block. -/
abbrev rOut : Rect S64x128x128 := Rect.unit (s := S64x128x128) ![0, 0, 0] S64x128x128.size inb_S64x128x128_S64x128x128_0_0_0

/-! ## What the body leaves in the output block -/

/-- The output block after the body, from the three input blocks: the residue product, plus the token product, plus the
    entity-and-chain product, each stored value read back before the next is added. -/
def bodyOut (x0 : Vec F S64x5 .i32) (x1 : Vec F S5x128 .i32) (x2 : Vec F S139x128 .f32) : Vec F S64x128x128 .f32 :=
  k0_pay3 (F := F) (k0_pay15 (F := F) (View.ld x2 rW2))
    (k0_pay17 (F := F) (k0_pay7 (F := F) (View.ld x0 rRow)) (k0_pay9 (F := F) (View.ld x1 rCol))
      (k0_pay11 (F := F) (View.ld x0 rRow) (View.ld x1 rCol)))
    (k0_pay2 (F := F) (k0_pay14 (F := F) (View.ld x2 rW1)) (k0_pay16 (F := F) (k0_pay13 (F := F) (View.ld x0 rRow) (View.ld x1 rCol)))
      (k0_pay1 (F := F) (k0_pay18 (F := F) (k0_pay12 (F := F) (View.ld x0 rRow) (View.ld x1 rCol)) (View.ld x2 rW0))))

/-! ## The pipeline's proof data -/

/-- The proof data of the pipeline on core `c`: the arrays as the region finds them; after the body at point `t` each
    input's buffer still at its block and the output's at `bodyOut` of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => bodyOut (F := F) (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = bodyOut (F := F) (iblk m c 0 t) (iblk m c 1 t) (iblk m c 2 t) := by dsimp only [dats]

end Cert.KernelIdeal.Hand

end
-- ==== Proof.KIFrame.lean ====
/-
  The frame of the relative-position kernel's program: @main is twelve host operations (five reshapes, five
  broadcasts, a five-way stack, a transpose), one pipelined region, and one last reshape.

  Host side. The operations before the region write only the twelve intermediate arrays, so the six arguments reach
  the region as launched; the reshape after it writes only the final result, so whatever the region leaves in its
  four arrays and whatever bypasses it is still there at the end.

  Body. At every grid point the kernel reads its three input blocks, stores a first product into the output block,
  reads the block back and adds a second product, stores, reads back and adds a third, stores. A read of the whole
  block after a store of the whole block is the stored value, so the block ends as the composition of the three
  payloads over the input blocks, and the inputs are untouched.
-/
import proofs.«423344_j87883620811381_3_alg».proof.Proof.KIDefs
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations write -/

/-- The arrays the operations before the region write: the twelve intermediates, none of them an argument. -/
abbrev written0 : List (Ref sig .tc) :=
  [main_v0, main_v1, main_v2, main_v3, main_v4, main_v5, main_v6, main_v7, main_v8, main_v9, main_v10, main_v11]

/-- The one array the operation after the region writes: the final result. -/
abbrev written1 : List (Ref sig .tc) := [main_v13]

/-- A single result buffer that is on a list is inside the list's set of device buffers. -/
theorem result_sub {Ws : List (Ref sig .tc)} {y : Ref sig .tc} (h : y ∈ Ws) :
    ({Proc.devRef (τ := τ) .tc y} : Finset (DevRef τ sig)) ⊆ (Ws.map (Proc.devRef (τ := τ) .tc)).toFinset :=
  Finset.singleton_subset_iff.mpr (List.mem_toFinset.mpr (List.mem_map_of_mem h))

/-- Every operation before the region writes one of the twelve intermediates. -/
theorem hostOps0_writes : (hostOps0 : List (HloOp τ sig (Elt F))).Forall fun op =>
    op.writes ⊆ (written0.map (Proc.devRef (τ := τ) .tc)).toFinset :=
  ⟨result_sub (y := main_v0) (by decide), result_sub (y := main_v1) (by decide), result_sub (y := main_v2) (by decide),
   result_sub (y := main_v3) (by decide), result_sub (y := main_v4) (by decide), result_sub (y := main_v5) (by decide),
   result_sub (y := main_v6) (by decide), result_sub (y := main_v7) (by decide), result_sub (y := main_v8) (by decide),
   result_sub (y := main_v9) (by decide), result_sub (y := main_v10) (by decide), result_sub (y := main_v11) (by decide)⟩

/-- The operation after the region writes the final result only. -/
theorem hostOps1_writes : (hostOps1 : List (HloOp τ sig (Elt F))).Forall fun op =>
    op.writes ⊆ (written1.map (Proc.devRef (τ := τ) .tc)).toFinset :=
  result_sub (y := main_v13) (by decide)

/-- None of them allocates. -/
theorem hostOps0_fresh : (hostOps0 : List (HloOp τ sig (Elt F))).Forall fun op => op.fresh = ∅ :=
  ⟨rfl, rfl, rfl, rfl, rfl, rfl, rfl, rfl, rfl, rfl, rfl, rfl⟩
theorem hostOps1_fresh : (hostOps1 : List (HloOp τ sig (Elt F))).Forall fun op => op.fresh = ∅ := rfl

/-- A property of the reshape after the region holds of every operation of the one stretch after the region. -/
theorem of_last_reshape {p : HloOp τ sig (Elt F) → Prop}
    (h : p (StableHlo.reshape main_v12 main_v13 rfl shapeCasts_S1024x1024x128_S1x1024x1024x128)) :
    ∀ ops ∈ ([hostOps1] : List (List (HloOp τ sig (Elt F)))), ∀ op ∈ ops, p op := by
  intro ops hops op hop
  rw [List.mem_singleton] at hops
  subst hops
  rw [List.mem_singleton] at hop
  subst hop
  exact h

/-! ## @main around the region -/

/-- @main is the host operations before the region, the region, and the reshape after it: run from the launch
    memory it reaches the region with the arrays at `V`, and continues with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- The reshape after the region touches unscoped TensorCore buffers only: arrays of the pipeline or buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact of_last_reshape (p := fun op => op.bufs ⊆ Pipeline.ucRefs τ sig) (Pipeline.sub_ucRefs _ hostOps1_sub)

/-- It allocates nothing. -/
theorem sfx_fresh : ∀ ops ∈ ([hostOps1] : List (List (HloOp τ sig (Elt F)))), ∀ op ∈ ops, op.fresh = ∅ :=
  of_last_reshape (p := fun op => op.fresh = ∅) rfl

/-- It writes the final result, which is none of the pipeline's four arrays. -/
theorem sfx_keeps : ∀ ops ∈ ([hostOps1] : List (List (HloOp τ sig (Elt F)))), ∀ op ∈ ops,
    ∀ w, Proc.devRef .tc (Pipeline.arrRef spec0 w) ∉ op.writes :=
  of_last_reshape (p := fun op => ∀ w, Proc.devRef .tc (Pipeline.arrRef spec0 w) ∉ op.writes) fun w hw =>
    StableHlo.devRef_ne_of_ne ((by decide : ∀ w, Pipeline.arrRef spec0 w ≠ main_v13) w) (Finset.mem_singleton.mp hw)

/-! ## The arguments at the region's entry and at the end -/

/-- An array the operations before the region do not write reaches the region as launched. -/
theorem V_of_not_written (c : Dev nD) (b : Ref sig .tc) (hb : b ∉ written0) : V m c b = m ((c : Thread nD τ).loc b) :=
  StableHlo.after_of_writes_sub (W := written0) (List.flatten [hostOps0]) (fun b => m (c, b))
    (show List.Forall _ (hostOps0 ++ []) by rw [List.append_nil]; exact hostOps0_writes) hb

theorem V_main_arg0 (c : Dev nD) : V m c main_arg0 = m ((c : Thread nD τ).loc main_arg0) := V_of_not_written m c main_arg0 (by decide)
theorem V_main_arg1 (c : Dev nD) : V m c main_arg1 = m ((c : Thread nD τ).loc main_arg1) := V_of_not_written m c main_arg1 (by decide)
theorem V_main_arg2 (c : Dev nD) : V m c main_arg2 = m ((c : Thread nD τ).loc main_arg2) := V_of_not_written m c main_arg2 (by decide)
theorem V_main_arg3 (c : Dev nD) : V m c main_arg3 = m ((c : Thread nD τ).loc main_arg3) := V_of_not_written m c main_arg3 (by decide)
theorem V_main_arg4 (c : Dev nD) : V m c main_arg4 = m ((c : Thread nD τ).loc main_arg4) := V_of_not_written m c main_arg4 (by decide)
theorem V_main_arg5 (c : Dev nD) : V m c main_arg5 = m ((c : Thread nD τ).loc main_arg5) := V_of_not_written m c main_arg5 (by decide)

/-- An array that is neither the final result nor one of the pipeline's four arrays ends as it reached the region. -/
theorem W_of_bypass (dats : (p : Fin 1) → (c : Dev nD) → Dat τ (Elt F) Unit ℕ (UR sig nD τ) ℕ (cfgs p) c) (c : Dev nD)
    (b : Ref sig .tc) (hb : b ∉ written1) (ha : ∀ w, Pipeline.arrRef spec0 w ≠ b) :
    Pipeline.afterTail₀ cfgs dats 0 (V0 m) [hostOps1] c b = V m c b := by
  unfold Pipeline.afterTail₀
  rw [StableHlo.after_of_writes_sub (W := written1) (List.flatten [hostOps1]) _
      (show List.Forall _ (hostOps1 ++ []) by rw [List.append_nil]; exact hostOps1_writes) hb]
  exact Pipeline.withArrays_of_ne _ c (V0 m c) _ b ha

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_bypass m dats c main_arg0 (by decide) (by decide)).trans (V_main_arg0 m c)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_bypass m dats c main_arg1 (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_bypass m dats c main_arg2 (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_bypass m dats c main_arg3 (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_bypass m dats c main_arg4 (by decide) (by decide)).trans (V_main_arg4 m c)

/-- The weights are the region's third array, a staged input that is never written back: for proof data whose array there
    is the region-entry contents (`hA`), the region hands them on as it found them, the last reshape does not write them,
    and no operation before the region does either. -/
theorem W_main_arg5 (dats : (p : Fin 1) → (c : Dev nD) → Dat τ (Elt F) Unit ℕ (UR sig nD τ) ℕ (cfgs p) c) (c : Dev nD)
    (hA : (dats 0 c).A 2 = V m c (Pipeline.arrRef spec0 2)) :
    Pipeline.afterTail₀ cfgs dats 0 (V0 m) [hostOps1] c main_arg5 = m ((c : Thread nD τ).loc main_arg5) := by
  unfold Pipeline.afterTail₀
  rw [StableHlo.after_of_writes_sub (W := written1) (List.flatten [hostOps1]) _
      (show List.Forall _ (hostOps1 ++ []) by rw [List.append_nil]; exact hostOps1_writes) (by decide : main_arg5 ∉ written1)]
  exact ((Pipeline.withArrays_arr spec0 launch0.win.arr_inj c (V0 m c) _ 2).trans
    (((dats 0 c).arrAt_in 2 rfl _).trans hA)).trans (V_main_arg5 m c)

/-! ## The body's triple -/

/-- The origin of a rank-3 block, spelt as the kernel's accesses spell it. -/
theorem zeros3 : (![0, 0, 0] : Fin 3 → Nat) = fun _ => 0 := by
  funext a; fin_cases a <;> rfl

/-- A read of a whole block after a store of the whole block is the stored value, whatever was stored before it:
    the last store covers every index, so nothing of the earlier ones (or of the prior contents) is seen. -/
theorem readCov_whole_after_store {sig' : RefSig} {κ : Kind} {sp : Space} {S : Shape} {e : EltTy}
    (v : View sig' κ sp S e) {off : Fin S.rank → Nat} (hz : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, View.mem_set_unit_zero hz inb y⟩),
    View.canon_cons_unit_zero hz inb, View.ld_unit_zero hz inb]

set_option maxHeartbeats 1000000 in
/-- The kernel body on whole staging memrefs: from the three inputs' at read contents `x0`, `x1`, `x2` and the output's at
    anything, it runs to the continuation holding the inputs' as they were and the output's at `bodyOut x0 x1 x2`. The
    first read of the output block (before any store) is of unknown contents and is not used; each later read follows a
    store of the whole block and is that store's value. -/
theorem sound_kernel (c : Dev nD) (E : Set ℕ) (i : grid0.Coords)
    (arg2 : Memref sig .tc .vmem S64x5 .i32) (harg2 : arg2.IsWhole) (arg3 : Memref sig .tc .vmem S5x128 .i32) (harg3 : arg3.IsWhole)
    (arg4 : Memref sig .tc .vmem S139x128 .f32) (harg4 : arg4.IsWhole) (arg5 : Memref sig .tc .vmem S64x128x128 .f32) (harg5 : arg5.IsWhole)
    (x0 : Vec F S64x5 .i32) (x1 : Vec F S5x128 .i32) (x2 : Vec F S139x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (bodyOut (F := F) x0 x1 x2)) -∗ K ⟨⟩))
      ⊢ wp frame (wpE (defs₀ (F := F)) Variants.none c none) E (cc0__rel_pos_kernel i arg2 harg2 arg3 harg3 arg4 harg4 arg5 harg5) K := by
  simp only [cc0__rel_pos_kernel_eq_skeleton]; unfold cc0__rel_pos_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap
  · iexact H3
  ipureintro
  rw [View.read_writes_eq_canon _ _ _
      (fun y => ⟨_, List.mem_cons_self, View.mem_set_unit_zero zeros3 inb_S64x128x128_S64x128x128_0_0_0 y⟩),
    View.canon_cons_unit_zero zeros3]
  sl_unfold_run_names
  dsimp only
  simp only [readCov_whole_after_store (S := S64x128x128) _ zeros3]
  rfl

/-! ## Each input's buffer when the body runs -/

/-- The row-feature window's current staging buffer holds its block at every point, fetched there or not: the body
    leaves it as found, and between two fetches the block index does not move. -/
theorem before0_0 (c : Dev nD) (t : Fin cfg0.N) (d) : (dats m 0 c).before 0 t d = iblk m c 0 t := by
  have hkeep : ∀ t, (cfg0.win 0).cut (cfg0.grid.coords t) ((dats m 0 c).after 0 t) = (dats m 0 c).blockOf 0 t := fun t => by
    rw [after0_0]; unfold Dat.blockOf iblk; rw [A_eq]
  rw [(dats m 0 c).before_in_eq_fetched 0 rfl (fun _ => rfl) (fun _ _ _ => rfl) hkeep t d]
  unfold Dat.fetched Dat.blockOf iblk
  rw [A_eq]
  rfl

/-- The same for the column-feature window. -/
theorem before0_1 (c : Dev nD) (t : Fin cfg0.N) (d) : (dats m 0 c).before 1 t d = iblk m c 1 t := by
  have hkeep : ∀ t, (cfg0.win 1).cut (cfg0.grid.coords t) ((dats m 0 c).after 1 t) = (dats m 0 c).blockOf 1 t := fun t => by
    rw [after0_1]; unfold Dat.blockOf iblk; rw [A_eq]
  rw [(dats m 0 c).before_in_eq_fetched 1 rfl (fun _ => rfl) (fun _ _ _ => rfl) hkeep t d]
  unfold Dat.fetched Dat.blockOf iblk
  rw [A_eq]
  rfl

/-- The same for the weights, fetched once. -/
theorem before0_2 (c : Dev nD) (t : Fin cfg0.N) (d) : (dats m 0 c).before 2 t d = iblk m c 2 t := by
  have hkeep : ∀ t, (cfg0.win 2).cut (cfg0.grid.coords t) ((dats m 0 c).after 2 t) = (dats m 0 c).blockOf 2 t := fun t => by
    rw [after0_2]; unfold Dat.blockOf iblk; rw [A_eq]
  rw [(dats m 0 c).before_in_eq_fetched 2 rfl (fun _ => rfl) (fun _ _ _ => rfl) hkeep t d]
  unfold Dat.fetched Dat.blockOf iblk
  rw [A_eq]
  rfl

/-! ## The body obligation at a point -/

/-- What the body is handed at point `t`: the invariant, what the core owes, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it hands back: the same invariant and debt, and each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three inputs' buffers hold their blocks, the output's holds anything, so the body's
    triple applies at the three blocks; the invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]
  · iexact H0
  isplitl [H1]
  · iexact H1
  isplitl [H2]
  · iexact H2
  isplitl [H3]
  · iexists _; iexact H3
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- The library's body obligation, at every point: its two conjunctions over the four windows written out. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with zero counters, every weakly fair execution of @main terminates, and at the end each of the
    pipeline's four arrays holds what the proof data compute for it and every other unscoped buffer what the last
    reshape leaves there. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run read at the final result and at the six arguments. The result and the five feature rows bypass the
    region, so they end at what the last reshape leaves; the weights are a staged input of the region, never written,
    so they end as the region found them; and no host operation before the region writes an argument. -/
theorem run_named : θ_run defs (onTc (τ := τ) (main (F := F))) ⟨m, fun _ => 0, ρ⟩ (fun r => ∀ c : Dev nD,
      r.2.mem ((c.tc : Thread nD τ).loc main_v13) = Pipeline.afterTail₀ cfgs (dats m) 0 (V0 m) [hostOps1] c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v13 (Pipeline.mem_restRefs_of main_v13 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     (((h c).1 2).trans ((dats m 0 c).arrAt_in 2 rfl _)).trans ((A_eq m c 2).trans (V_main_arg5 m c))⟩) (run_main m ρ)

/-- THE FRAME: the program runs and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Hand

end
-- ==== Proof.BlockValue.lean ====
/-
  One entry of the output block, at the ideal instance: the three matrix products against one-hot rows collapse to
  rows of the weight block, so the entry is the embedding's cell of the row token's and the column token's features.

  The road: each product into a zero accumulator is a plain sum over its inner axis; the regrouping of the 8192 rows
  as 64 × 128 sends row 128 p + q to (p, q); the left factor's row (p, q) is a one-hot row (1 at the column whose number
  is the bucket of (p, q), 0 elsewhere), so the sum keeps one row of the right factor; the three buckets and the entity
  bit at (p, q) are the specification's functions of the row token's and the column token's features; the three kept
  rows are rows dRes, 66 + dTok and 133 + dChain of the weight block, the entity bit scaling row 132; and the two
  groupings of the four summands agree by associativity.
-/
import proofs.«423344_j87883620811381_3_alg».proof.Proof.KIDefs
import proofs.«423344_j87883620811381_3_alg».proof.Proof.Spec
import Idealize.ShloMosaic.Lib.Pipeline.Value
import Idealize.ShloMosaic.PureOps.Ideal.Laws
import Idealize.ShloMosaic.Lib.ValueIdx

noncomputable section

namespace Cert.KernelIdeal.BlockValue

open Cert.KernelIdeal Cert.KernelIdeal.Gen Cert.KernelIdeal.Hand
open Idealize.ShloMosaic Idealize.ShloMosaic.ValueIdx

/-! ## The two products' operand indices, axis by axis -/

theorem lhs66_0 (j : S8192x128.Idx) (c : dot_S8192x66_S66x128_S8192x128_1_0_0_1_n_n.contr.Idx) :
    (dot_S8192x66_S66x128_S8192x128_1_0_0_1_n_n.lhsIdx j c 0 : ℕ) = j 0 := by
  simp [DotDims.lhsIdx, dot_S8192x66_S66x128_S8192x128_1_0_0_1_n_n]; rfl
theorem lhs66_1 (j : S8192x128.Idx) (c : dot_S8192x66_S66x128_S8192x128_1_0_0_1_n_n.contr.Idx) :
    (dot_S8192x66_S66x128_S8192x128_1_0_0_1_n_n.lhsIdx j c 1 : ℕ) = c ⟨0, by decide⟩ := by
  simp [DotDims.lhsIdx, dot_S8192x66_S66x128_S8192x128_1_0_0_1_n_n]; rfl
theorem rhs66_0 (j : S8192x128.Idx) (c : dot_S8192x66_S66x128_S8192x128_1_0_0_1_n_n.contr.Idx) :
    (dot_S8192x66_S66x128_S8192x128_1_0_0_1_n_n.rhsIdx j c 0 : ℕ) = c ⟨0, by decide⟩ := by
  simp [DotDims.rhsIdx, dot_S8192x66_S66x128_S8192x128_1_0_0_1_n_n]; rfl
theorem rhs66_1 (j : S8192x128.Idx) (c : dot_S8192x66_S66x128_S8192x128_1_0_0_1_n_n.contr.Idx) :
    (dot_S8192x66_S66x128_S8192x128_1_0_0_1_n_n.rhsIdx j c 1 : ℕ) = j 1 := by
  simp [DotDims.rhsIdx, dot_S8192x66_S66x128_S8192x128_1_0_0_1_n_n]; rfl

/-- The 8192 × 66 by 66 × 128 product into a zero accumulator, at entry (r, k): the sum over the 66 columns. -/
theorem matmul66_apply (L : FVec Ideal S8192x66 .bf16) (R : FVec Ideal S66x128 .bf16) (r : Fin 8192) (k : Fin 128) :
    matmul dot_S8192x66_S66x128_S8192x128_1_0_0_1_n_n none L R (constant (F := Ideal) S8192x128 .f32 0x00000000#32) (ix2 r k)
      = ∑ j : Fin 66, L (ix2 r j) * R (ix2 j k) := by
  refine (Ideal.matmul_constant_zero_apply dot_S8192x66_S66x128_S8192x128_1_0_0_1_n_n none L R (ix2 r k)).trans ?_
  rw [← Equiv.sum_comp (contrEquiv1 dot_S8192x66_S66x128_S8192x128_1_0_0_1_n_n 66 rfl rfl).symm]
  refine Finset.sum_congr rfl fun c _ => ?_
  have hc := contrEquiv1_symm_val dot_S8192x66_S66x128_S8192x128_1_0_0_1_n_n 66 rfl rfl c
  have hl : dot_S8192x66_S66x128_S8192x128_1_0_0_1_n_n.lhsIdx (ix2 r k)
      ((contrEquiv1 dot_S8192x66_S66x128_S8192x128_1_0_0_1_n_n 66 rfl rfl).symm c) = ix2 r c := by
    funext a; apply Fin.ext
    match a with
    | ⟨0, _⟩ => exact lhs66_0 _ _
    | ⟨1, _⟩ => exact (lhs66_1 _ _).trans hc
  have hr : dot_S8192x66_S66x128_S8192x128_1_0_0_1_n_n.rhsIdx (ix2 r k)
      ((contrEquiv1 dot_S8192x66_S66x128_S8192x128_1_0_0_1_n_n 66 rfl rfl).symm c) = ix2 c k := by
    funext a; apply Fin.ext
    match a with
    | ⟨0, _⟩ => exact (rhs66_0 _ _).trans hc
    | ⟨1, _⟩ => exact rhs66_1 _ _
  rw [hl, hr]

theorem lhs7_0 (j : S8192x128.Idx) (c : dot_S8192x7_S7x128_S8192x128_1_0_0_1_n_n.contr.Idx) :
    (dot_S8192x7_S7x128_S8192x128_1_0_0_1_n_n.lhsIdx j c 0 : ℕ) = j 0 := by
  simp [DotDims.lhsIdx, dot_S8192x7_S7x128_S8192x128_1_0_0_1_n_n]; rfl
theorem lhs7_1 (j : S8192x128.Idx) (c : dot_S8192x7_S7x128_S8192x128_1_0_0_1_n_n.contr.Idx) :
    (dot_S8192x7_S7x128_S8192x128_1_0_0_1_n_n.lhsIdx j c 1 : ℕ) = c ⟨0, by decide⟩ := by
  simp [DotDims.lhsIdx, dot_S8192x7_S7x128_S8192x128_1_0_0_1_n_n]; rfl
theorem rhs7_0 (j : S8192x128.Idx) (c : dot_S8192x7_S7x128_S8192x128_1_0_0_1_n_n.contr.Idx) :
    (dot_S8192x7_S7x128_S8192x128_1_0_0_1_n_n.rhsIdx j c 0 : ℕ) = c ⟨0, by decide⟩ := by
  simp [DotDims.rhsIdx, dot_S8192x7_S7x128_S8192x128_1_0_0_1_n_n]; rfl
theorem rhs7_1 (j : S8192x128.Idx) (c : dot_S8192x7_S7x128_S8192x128_1_0_0_1_n_n.contr.Idx) :
    (dot_S8192x7_S7x128_S8192x128_1_0_0_1_n_n.rhsIdx j c 1 : ℕ) = j 1 := by
  simp [DotDims.rhsIdx, dot_S8192x7_S7x128_S8192x128_1_0_0_1_n_n]; rfl

/-- The 8192 × 7 by 7 × 128 product into a zero accumulator, at entry (r, k): the sum over the 7 columns. -/
theorem matmul7_apply (L : FVec Ideal S8192x7 .bf16) (R : FVec Ideal S7x128 .bf16) (r : Fin 8192) (k : Fin 128) :
    matmul dot_S8192x7_S7x128_S8192x128_1_0_0_1_n_n none L R (constant (F := Ideal) S8192x128 .f32 0x00000000#32) (ix2 r k)
      = ∑ j : Fin 7, L (ix2 r j) * R (ix2 j k) := by
  refine (Ideal.matmul_constant_zero_apply dot_S8192x7_S7x128_S8192x128_1_0_0_1_n_n none L R (ix2 r k)).trans ?_
  rw [← Equiv.sum_comp (contrEquiv1 dot_S8192x7_S7x128_S8192x128_1_0_0_1_n_n 7 rfl rfl).symm]
  refine Finset.sum_congr rfl fun c _ => ?_
  have hc := contrEquiv1_symm_val dot_S8192x7_S7x128_S8192x128_1_0_0_1_n_n 7 rfl rfl c
  have hl : dot_S8192x7_S7x128_S8192x128_1_0_0_1_n_n.lhsIdx (ix2 r k)
      ((contrEquiv1 dot_S8192x7_S7x128_S8192x128_1_0_0_1_n_n 7 rfl rfl).symm c) = ix2 r c := by
    funext a; apply Fin.ext
    match a with
    | ⟨0, _⟩ => exact lhs7_0 _ _
    | ⟨1, _⟩ => exact (lhs7_1 _ _).trans hc
  have hr : dot_S8192x7_S7x128_S8192x128_1_0_0_1_n_n.rhsIdx (ix2 r k)
      ((contrEquiv1 dot_S8192x7_S7x128_S8192x128_1_0_0_1_n_n 7 rfl rfl).symm c) = ix2 c k := by
    funext a; apply Fin.ext
    match a with
    | ⟨0, _⟩ => exact (rhs7_0 _ _).trans hc
    | ⟨1, _⟩ => exact rhs7_1 _ _
  rw [hl, hr]

/-! ## The flattenings of the first two axes: row 128 p + q of a matrix with 8192 rows is entry (p, q) -/

/-- Row number 128 p + q, below 8192. -/
def row (p : Fin 64) (q : Fin 128) : Fin 8192 := ⟨128 * p.val + q.val, by have := p.isLt; have := q.isLt; omega⟩

theorem cast_8192x128 {α : Type} (v : S8192x128.Idx → α) (p : Fin 64) (q : Fin 128) (k : Fin 128) :
    shapeCast S64x128x128 v shapeCasts_S8192x128_S64x128x128 (ix3 p q k) = v (ix2 (row p q) k) := by
  refine shapeCast_apply v shapeCasts_S8192x128_S64x128x128 (ix3 p q k) (ix2 (row p q) k) ?_
  rw [Shape.rowMajor_val_two, Shape.rowMajor_val_three]
  show (128 * p.val + q.val) * 128 + k.val = (p.val * 128 + q.val) * 128 + k.val
  omega

theorem cast_8192x66 {α : Type} (v : S64x128x66.Idx → α) (p : Fin 64) (q : Fin 128) (j : Fin 66) :
    shapeCast S8192x66 v shapeCasts_S64x128x66_S8192x66 (ix2 (row p q) j) = v (ix3 p q j) := by
  refine shapeCast_apply v shapeCasts_S64x128x66_S8192x66 (ix2 (row p q) j) (ix3 p q j) ?_
  rw [Shape.rowMajor_val_two, Shape.rowMajor_val_three]
  show (p.val * 128 + q.val) * 66 + j.val = (128 * p.val + q.val) * 66 + j.val
  omega

theorem cast_8192x7 {α : Type} (v : S64x128x7.Idx → α) (p : Fin 64) (q : Fin 128) (j : Fin 7) :
    shapeCast S8192x7 v shapeCasts_S64x128x7_S8192x7 (ix2 (row p q) j) = v (ix3 p q j) := by
  refine shapeCast_apply v shapeCasts_S64x128x7_S8192x7 (ix2 (row p q) j) (ix3 p q j) ?_
  rw [Shape.rowMajor_val_two, Shape.rowMajor_val_three]
  show (p.val * 128 + q.val) * 7 + j.val = (128 * p.val + q.val) * 7 + j.val
  omega

/-- A 64 × 128 matrix seen as 64 × 128 × 1. -/
theorem cast_64x128x1 {α : Type} (v : S64x128.Idx → α) (p : Fin 64) (q : Fin 128) (z : Fin 1) :
    shapeCast S64x128x1 v shapeCasts_S64x128_S64x128x1 (ix3 p q z) = v (ix2 p q) := by
  refine shapeCast_apply v shapeCasts_S64x128_S64x128x1 (ix3 p q z) (ix2 p q) ?_
  rw [Shape.rowMajor_val_two, Shape.rowMajor_val_three]
  show p.val * 128 + q.val = (p.val * 128 + q.val) * 1 + z.val
  have := z.isLt
  omega

/-! ## The features spread over the 64 × 128 block -/

/-- Column c of a 64 × 5 block. -/
theorem colOf_apply {α : Type} (off : Fin 2 → ℕ) (x : S64x5.Idx → α) (h : S64x5.Slices off S64x1) (c : Fin 5)
    (h0 : off 0 = 0) (h1 : off 1 = c.val) (p : Fin 64) (z : Fin 1) :
    extractStridedSlice S64x1 off x h (ix2 p z) = x (ix2 p c) := by
  refine extractStridedSlice_apply off x h (ix2 p z) (ix2 p c) fun a => ?_
  match a with
  | ⟨0, _⟩ => show p.val = off 0 + p.val; omega
  | ⟨1, _⟩ => show c.val = off 1 + z.val; have := z.isLt; omega

/-- Row c of a 5 × 128 block. -/
theorem rowOf_apply {α : Type} (off : Fin 2 → ℕ) (x : S5x128.Idx → α) (h : S5x128.Slices off S1x128) (c : Fin 5)
    (h0 : off 0 = c.val) (h1 : off 1 = 0) (z : Fin 1) (q : Fin 128) :
    extractStridedSlice S1x128 off x h (ix2 z q) = x (ix2 c q) := by
  refine extractStridedSlice_apply off x h (ix2 z q) (ix2 c q) fun a => ?_
  match a with
  | ⟨0, _⟩ => show c.val = off 0 + z.val; have := z.isLt; omega
  | ⟨1, _⟩ => show q.val = off 1 + q.val; omega

/-- A column spread along the rows' second axis. -/
theorem spreadCol_apply {α : Type} (x : S64x1.Idx → α) (p : Fin 64) (q : Fin 128) :
    broadcastTo S64x128 x broadcasts_S64x1_S64x128 (ix2 p q) = x (ix2 p (0 : Fin 1)) := by
  refine broadcastTo_apply x broadcasts_S64x1_S64x128 (ix2 p q) (ix2 p (0 : Fin 1)) fun a => ?_
  match a with
  | ⟨0, _⟩ => rfl
  | ⟨1, _⟩ => rfl

/-- A row spread along the first axis. -/
theorem spreadRow_apply {α : Type} (x : S1x128.Idx → α) (p : Fin 64) (q : Fin 128) :
    broadcastTo S64x128 x broadcasts_S1x128_S64x128 (ix2 p q) = x (ix2 (0 : Fin 1) q) := by
  refine broadcastTo_apply x broadcasts_S1x128_S64x128 (ix2 p q) (ix2 (0 : Fin 1) q) fun a => ?_
  match a with
  | ⟨0, _⟩ => rfl
  | ⟨1, _⟩ => rfl

/-- Feature c of the row token at entry (p, q) of the block: the 64 × 5 block's entry (p, c). -/
theorem rowFeat (x : Vec Ideal S64x5 .i32) (off : Fin 2 → ℕ) (h : S64x5.Slices off S64x1) (c : Fin 5)
    (h0 : off 0 = 0) (h1 : off 1 = c.val) (p : Fin 64) (q : Fin 128) :
    broadcastTo S64x128 (extractStridedSlice S64x1 off (k0_pay4 (F := Ideal) x) h) broadcasts_S64x1_S64x128 (ix2 p q) = x (ix2 p c) := by
  refine (spreadCol_apply _ p q).trans ?_
  refine (colOf_apply off _ h c h0 h1 p 0).trans ?_
  unfold k0_pay4
  exact congrFun (shapeCast_self x shapeCasts_S64x5_S64x5) (ix2 p c)

/-- Feature c of the column token at entry (p, q) of the block: the 5 × 128 block's entry (c, q). -/
theorem colFeat (x : Vec Ideal S5x128 .i32) (off : Fin 2 → ℕ) (h : S5x128.Slices off S1x128) (c : Fin 5)
    (h0 : off 0 = c.val) (h1 : off 1 = 0) (p : Fin 64) (q : Fin 128) :
    broadcastTo S64x128 (extractStridedSlice S1x128 off (k0_pay5 (F := Ideal) x) h) broadcasts_S1x128_S64x128 (ix2 p q) = x (ix2 c q) := by
  refine (spreadRow_apply _ p q).trans ?_
  refine (rowOf_apply off _ h c h0 h1 0 q).trans ?_
  unfold k0_pay5
  exact congrFun (shapeCast_self x shapeCasts_S5x128_S5x128) (ix2 c q)

/-! ## One entry of a one-hot row -/

/-- The entry of a one-hot row: the comparison bit of the bucket against a column number, widened and converted. -/
def hot (d : BitVec 32) (n : ℕ) : EReal :=
  FloatOps.sitofp (F := Ideal) .f32 ((IntOp.cmpi .eq d (BitVec.ofNat 32 n)).setWidth 32)

/-- It is 1 at the bucket's own column and 0 elsewhere. -/
theorem hot_eq (d : BitVec 32) (n : ℕ) (hn : n < 4294967296) : hot d n = if n = d.toNat then 1 else 0 := by
  unfold hot
  by_cases h : d = BitVec.ofNat 32 n
  · have hn' : n = d.toNat := by rw [h, BitVec.toNat_ofNat]; omega
    rw [if_pos hn']
    have hb : IntOp.cmpi .eq d (BitVec.ofNat 32 n) = 1#1 := by
      show BitVec.ofBool (d == BitVec.ofNat 32 n) = 1#1
      rw [beq_iff_eq.mpr h]; rfl
    rw [hb]
    show (((((1#1 : BitVec 1).setWidth 32).toInt : ℤ) : ℝ) : EReal) = 1
    have : ((1#1 : BitVec 1).setWidth 32).toInt = 1 := by decide
    rw [this]; simp
  · have hn' : ¬ n = d.toNat := fun e => h (by rw [e, BitVec.ofNat_toNat, BitVec.setWidth_eq])
    rw [if_neg hn']
    have hb : IntOp.cmpi .eq d (BitVec.ofNat 32 n) = 0#1 := by
      show BitVec.ofBool (d == BitVec.ofNat 32 n) = 0#1
      rw [beq_eq_false_iff_ne.mpr h]; rfl
    rw [hb]
    show (((((0#1 : BitVec 1).setWidth 32).toInt : ℤ) : ℝ) : EReal) = 0
    have : ((0#1 : BitVec 1).setWidth 32).toInt = 0 := by decide
    rw [this]; simp

/-- The entity bit converted the same way is the bit's value. -/
theorem bit_eq (b : BitVec 1) :
    FloatOps.sitofp (F := Ideal) .f32 (b.setWidth 32) = Cert.RelPos.bitVal b := by
  rcases BitVec.eq_zero_or_eq_one b with h | h <;> subst h
  · rw [Cert.RelPos.bitVal_zero]
    show (((((0#1 : BitVec 1).setWidth 32).toInt : ℤ) : ℝ) : EReal) = 0
    have : ((0#1 : BitVec 1).setWidth 32).toInt = 0 := by decide
    rw [this]; simp
  · rw [Cert.RelPos.bitVal_one]
    show (((((1#1 : BitVec 1).setWidth 32).toInt : ℤ) : ℝ) : EReal) = 1
    have : ((1#1 : BitVec 1).setWidth 32).toInt = 1 := by decide
    rw [this]; simp

/-! ## The three buckets and the entity bit at entry (p, q) -/

/-- The residue bucket of row token p and column token q. -/
theorem resBucket_apply (x0 : Vec Ideal S64x5 .i32) (x1 : Vec Ideal S5x128 .i32) (p : Fin 64) (q : Fin 128) :
    k0_pay12 (F := Ideal) x0 x1 (ix2 p q)
      = Cert.RelPos.dRes (x0 (ix2 p (0 : Fin 5))) (x0 (ix2 p (1 : Fin 5))) (x1 (ix2 (0 : Fin 5) q)) (x1 (ix2 (1 : Fin 5) q)) := by
  have a0 := rowFeat x0 ![0, 0] slices_S64x5_o0_0_S64x1 0 rfl rfl p q
  have a1 := rowFeat x0 ![0, 1] slices_S64x5_o0_1_S64x1 1 rfl rfl p q
  have b0 := colFeat x1 ![0, 0] slices_S5x128_o0_0_S1x128 0 rfl rfl p q
  have b1 := colFeat x1 ![1, 0] slices_S5x128_o1_0_S1x128 1 rfl rfl p q
  rw [← a0, ← a1, ← b0, ← b1]
  rfl

/-- The token bucket. -/
theorem tokBucket_apply (x0 : Vec Ideal S64x5 .i32) (x1 : Vec Ideal S5x128 .i32) (p : Fin 64) (q : Fin 128) :
    k0_pay13 (F := Ideal) x0 x1 (ix2 p q)
      = Cert.RelPos.dTok (x0 (ix2 p (0 : Fin 5))) (x0 (ix2 p (1 : Fin 5))) (x0 (ix2 p (4 : Fin 5)))
          (x1 (ix2 (0 : Fin 5) q)) (x1 (ix2 (1 : Fin 5) q)) (x1 (ix2 (4 : Fin 5) q)) := by
  have a0 := rowFeat x0 ![0, 0] slices_S64x5_o0_0_S64x1 0 rfl rfl p q
  have a1 := rowFeat x0 ![0, 1] slices_S64x5_o0_1_S64x1 1 rfl rfl p q
  have a4 := rowFeat x0 ![0, 4] slices_S64x5_o0_4_S64x1 4 rfl rfl p q
  have b0 := colFeat x1 ![0, 0] slices_S5x128_o0_0_S1x128 0 rfl rfl p q
  have b1 := colFeat x1 ![1, 0] slices_S5x128_o1_0_S1x128 1 rfl rfl p q
  have b4 := colFeat x1 ![4, 0] slices_S5x128_o4_0_S1x128 4 rfl rfl p q
  rw [← a0, ← a1, ← a4, ← b0, ← b1, ← b4]
  rfl

/-- The entity bit. -/
theorem entBit_apply (x0 : Vec Ideal S64x5 .i32) (x1 : Vec Ideal S5x128 .i32) (p : Fin 64) (q : Fin 128) :
    k0_pay11 (F := Ideal) x0 x1 (ix2 p q) = Cert.RelPos.sameEnt (x0 (ix2 p (2 : Fin 5))) (x1 (ix2 (2 : Fin 5) q)) := by
  have a2 := rowFeat x0 ![0, 2] slices_S64x5_o0_2_S64x1 2 rfl rfl p q
  have b2 := colFeat x1 ![2, 0] slices_S5x128_o2_0_S1x128 2 rfl rfl p q
  rw [← a2, ← b2]
  rfl

/-! ## The one-hot rows -/

/-- A 64 × 128 matrix spread along a new last axis of length 66. -/
theorem depth66_apply {α : Type} (d : S64x128.Idx → α) (p : Fin 64) (q : Fin 128) (j : Fin 66) :
    broadcastTo S64x128x66 (shapeCast S64x128x1 d shapeCasts_S64x128_S64x128x1) broadcasts_S64x128x1_S64x128x66 (ix3 p q j) = d (ix2 p q) := by
  refine (broadcastTo_apply _ broadcasts_S64x128x1_S64x128x66 (ix3 p q j) (ix3 p q (0 : Fin 1)) fun a => ?_).trans (cast_64x128x1 d p q 0)
  match a with
  | ⟨0, _⟩ => rfl
  | ⟨1, _⟩ => rfl
  | ⟨2, _⟩ => rfl

/-- The same with a last axis of length 6. -/
theorem depth6_apply {α : Type} (d : S64x128.Idx → α) (p : Fin 64) (q : Fin 128) (j : Fin 6) :
    broadcastTo S64x128x6 (shapeCast S64x128x1 d shapeCasts_S64x128_S64x128x1) broadcasts_S64x128x1_S64x128x6 (ix3 p q j) = d (ix2 p q) := by
  refine (broadcastTo_apply _ broadcasts_S64x128x1_S64x128x6 (ix3 p q j) (ix3 p q (0 : Fin 1)) fun a => ?_).trans (cast_64x128x1 d p q 0)
  match a with
  | ⟨0, _⟩ => rfl
  | ⟨1, _⟩ => rfl
  | ⟨2, _⟩ => rfl

/-- The column numbers 0 … 65 spread over the block: entry (p, q, j) is j. -/
theorem count66_apply (p : Fin 64) (q : Fin 128) (j : Fin 66) :
    broadcastTo S64x128x66 (iota .tc S1x1x66 32 [2] iota_S1x1x66_d2_w32) broadcasts_S1x1x66_S64x128x66 (ix3 p q j) = BitVec.ofNat 32 j.val := by
  refine (broadcastTo_apply _ broadcasts_S1x1x66_S64x128x66 (ix3 p q j) (ix3 (0 : Fin 1) (0 : Fin 1) j) fun a => ?_).trans
    (iota_single_apply .tc S1x1x66 32 2 iota_S1x1x66_d2_w32 (ix3 (0 : Fin 1) (0 : Fin 1) j))
  match a with
  | ⟨0, _⟩ => rfl
  | ⟨1, _⟩ => rfl
  | ⟨2, _⟩ => rfl

/-- The column numbers 0 … 5 spread over the block. -/
theorem count6_apply (p : Fin 64) (q : Fin 128) (j : Fin 6) :
    broadcastTo S64x128x6 (iota .tc S1x1x6 32 [2] iota_S1x1x6_d2_w32) broadcasts_S1x1x6_S64x128x6 (ix3 p q j) = BitVec.ofNat 32 j.val := by
  refine (broadcastTo_apply _ broadcasts_S1x1x6_S64x128x6 (ix3 p q j) (ix3 (0 : Fin 1) (0 : Fin 1) j) fun a => ?_).trans
    (iota_single_apply .tc S1x1x6 32 2 iota_S1x1x6_d2_w32 (ix3 (0 : Fin 1) (0 : Fin 1) j))
  match a with
  | ⟨0, _⟩ => rfl
  | ⟨1, _⟩ => rfl
  | ⟨2, _⟩ => rfl

/-- Row 128 p + q of the 8192 × 66 one-hot matrix of a 64 × 128 matrix of buckets: entry j is the one-hot entry of
    bucket (p, q) at column j. -/
theorem hotRow66_apply (d : IVec S64x128 32) (p : Fin 64) (q : Fin 128) (j : Fin 66) :
    k0_pay16 (F := Ideal) d (ix2 (row p q) j) = hot (d (ix2 p q)) j.val := by
  have e1 := depth66_apply d p q j
  have e2 := count66_apply p q j
  unfold k0_pay16
  refine (cast_8192x66 _ p q j).trans ?_
  unfold hot
  rw [← e1, ← e2]
  rfl

/-! ## The left operand of the third product: the entity bit, then the chain one-hot row -/

/-- A one-hot entry read through the widening, the conversion and the format change. -/
theorem hotEntry_apply {s : Shape} (A B : IVec s 32) (i : s.Idx) :
    (truncf .bf16 (sitofp (F := Ideal) .f32 (extui 32 (cmpi .eq A B) natLt_1_32)) bitsLt_bf16_f32 : FVec Ideal s .bf16) i
      = FloatOps.sitofp (F := Ideal) .f32 ((IntOp.cmpi .eq (A i) (B i)).setWidth 32) := rfl

/-- Column 0 of row 128 p + q: the entity bit of (p, q), converted. -/
theorem chainRow_zero (v7 : IVec S64x1 32) (v12 : IVec S1x128 32) (v22 : IVec S64x128 1) (p : Fin 64) (q : Fin 128) :
    k0_pay17 (F := Ideal) v7 v12 v22 (ix2 (row p q) (0 : Fin 7))
      = FloatOps.sitofp (F := Ideal) .f32 ((v22 (ix2 p q)).setWidth 32) := by
  unfold k0_pay17
  refine (cast_8192x7 _ p q 0).trans ?_
  refine (concatenate_pair_apply_left (2 : Fin S64x128x7.rank) _ _ concatenates_S64x128x1_S64x128x6_S64x128x7_d2
    (ix3 p q (0 : Fin 7)) rfl (ix3 p q (0 : Fin 1)) fun b => ?_).trans ?_
  · match b with
    | ⟨0, _⟩ => rfl
    | ⟨1, _⟩ => rfl
    | ⟨2, _⟩ => rfl
  · exact cast_64x128x1 _ p q 0

/-- Column j + 1 of row 128 p + q: the one-hot entry, at column j, of the chain bucket of (p, q). -/
theorem chainRow_succ (v7 : IVec S64x1 32) (v12 : IVec S1x128 32) (v22 : IVec S64x128 1) (p : Fin 64) (q : Fin 128) (j : Fin 6) :
    k0_pay17 (F := Ideal) v7 v12 v22 (ix2 (row p q) (j.succ : Fin 7))
      = hot (Scalar.select (v22 (ix2 p q)) (Cert.RelPos.relClip 2#32 4#32 (v7 (ix2 p (0 : Fin 1))) (v12 (ix2 (0 : Fin 1) q))) 5#32) j.val := by
  have e7 := spreadCol_apply v7 p q
  have e12 := spreadRow_apply v12 p q
  unfold k0_pay17
  refine (cast_8192x7 _ p q j.succ).trans ?_
  refine (concatenate_pair_apply_right (2 : Fin S64x128x7.rank) _ _ concatenates_S64x128x1_S64x128x6_S64x128x7_d2
    (ix3 p q (j.succ : Fin 7)) rfl rfl (ix3 p q j) (fun b hb => ?_) ?_).trans ?_
  · match b with
    | ⟨0, _⟩ => rfl
    | ⟨1, _⟩ => rfl
    | ⟨2, _⟩ => exact absurd rfl hb
  · show j.val + 1 = j.val + 1
    rfl
  · refine (hotEntry_apply _ _ _).trans ?_
    rw [depth6_apply, count6_apply, ← e7, ← e12]
    rfl

/-! ## The three slices of the weight block, rows numbered as in the whole block -/

/-- Rows 0 … 65. -/
theorem w0_apply (x2 : Vec Ideal S139x128 .f32) (j : Fin 66) (k : Fin 128) :
    (View.ld x2 rW0 : Vec Ideal S66x128 .f32) (ix2 j k) = Cert.RelPos.wAt x2 k j.val := by
  rw [Cert.RelPos.wAt_of_lt x2 k j.val (by have := j.isLt; omega)]
  refine congrArg x2 (funext fun a => Fin.ext ?_)
  match a with
  | ⟨0, _⟩ => show 0 + 1 * j.val = j.val; omega
  | ⟨1, _⟩ => show 0 + 1 * k.val = k.val; omega

/-- Rows 66 … 131. -/
theorem w1_apply (x2 : Vec Ideal S139x128 .f32) (j : Fin 66) (k : Fin 128) :
    k0_pay14 (F := Ideal) (View.ld x2 rW1) (ix2 j k) = Cert.RelPos.wAt x2 k (66 + j.val) := by
  rw [Cert.RelPos.wAt_of_lt x2 k (66 + j.val) (by have := j.isLt; omega)]
  refine congrArg x2 (funext fun a => Fin.ext ?_)
  match a with
  | ⟨0, _⟩ => show 66 + 1 * j.val = 66 + j.val; omega
  | ⟨1, _⟩ => show 0 + 1 * k.val = k.val; omega

/-- Rows 132 … 138. -/
theorem w2_apply (x2 : Vec Ideal S139x128 .f32) (j : Fin 7) (k : Fin 128) :
    k0_pay15 (F := Ideal) (View.ld x2 rW2) (ix2 j k) = Cert.RelPos.wAt x2 k (132 + j.val) := by
  rw [Cert.RelPos.wAt_of_lt x2 k (132 + j.val) (by have := j.isLt; omega)]
  refine congrArg x2 (funext fun a => Fin.ext ?_)
  match a with
  | ⟨0, _⟩ => show 132 + 1 * j.val = 132 + j.val; omega
  | ⟨1, _⟩ => show 0 + 1 * k.val = k.val; omega

/-! ## The three products at entry (128 p + q, k) -/

/-- A product whose left row is the one-hot row of a bucket below 66 reads the right factor's row of that number. -/
theorem hotSum66 (L : FVec Ideal S8192x66 .bf16) (r : Fin 8192) (d : BitVec 32) (hd : d.toNat < 66)
    (hL : ∀ j : Fin 66, L (ix2 r j) = hot d j.val) (w : Fin 66 → EReal) :
    ∑ j : Fin 66, L (ix2 r j) * w j = w ⟨d.toNat, hd⟩ := by
  refine (Finset.sum_congr rfl fun j _ => ?_).trans (Cert.RelPos.onehot_sum d.toNat hd w)
  rw [hL j, hot_eq d j.val (by have := j.isLt; omega)]

/-- The residue product: row dRes of the weights. -/
theorem resProduct_apply (x0 : Vec Ideal S64x5 .i32) (x1 : Vec Ideal S5x128 .i32) (x2 : Vec Ideal S139x128 .f32)
    (p : Fin 64) (q : Fin 128) (k : Fin 128) :
    k0_pay18 (F := Ideal) (k0_pay12 (F := Ideal) x0 x1) (View.ld x2 rW0) (ix2 (row p q) k)
      = Cert.RelPos.wAt x2 k
          (Cert.RelPos.dRes (x0 (ix2 p (0 : Fin 5))) (x0 (ix2 p (1 : Fin 5))) (x1 (ix2 (0 : Fin 5) q)) (x1 (ix2 (1 : Fin 5) q))).toNat := by
  have hd := Cert.RelPos.dRes_lt (x0 (ix2 p (0 : Fin 5))) (x0 (ix2 p (1 : Fin 5))) (x1 (ix2 (0 : Fin 5) q)) (x1 (ix2 (1 : Fin 5) q))
  have hL : ∀ j : Fin 66, k0_pay16 (F := Ideal) (k0_pay12 (F := Ideal) x0 x1) (ix2 (row p q) j)
      = hot (Cert.RelPos.dRes (x0 (ix2 p (0 : Fin 5))) (x0 (ix2 p (1 : Fin 5))) (x1 (ix2 (0 : Fin 5) q)) (x1 (ix2 (1 : Fin 5) q))) j.val :=
    fun j => (hotRow66_apply _ p q j).trans (by rw [resBucket_apply])
  have hW : ∀ j : Fin 66, (View.ld x2 rW0 : Vec Ideal S66x128 .f32) (ix2 j k) = Cert.RelPos.wAt x2 k j.val := fun j => w0_apply x2 j k
  unfold k0_pay18
  refine (matmul66_apply _ _ (row p q) k).trans ?_
  refine (Finset.sum_congr rfl fun j _ => ?_).trans
    (hotSum66 (k0_pay16 (F := Ideal) (k0_pay12 (F := Ideal) x0 x1)) (row p q) _ hd hL (fun j => Cert.RelPos.wAt x2 k j.val))
  exact congrArg (_ * ·) (hW j)

/-- The token product: row 66 + dTok of the weights. -/
theorem tokProduct_apply (x0 : Vec Ideal S64x5 .i32) (x1 : Vec Ideal S5x128 .i32) (x2 : Vec Ideal S139x128 .f32)
    (p : Fin 64) (q : Fin 128) (k : Fin 128) :
    ∑ j : Fin 66, k0_pay16 (F := Ideal) (k0_pay13 (F := Ideal) x0 x1) (ix2 (row p q) j) * k0_pay14 (F := Ideal) (View.ld x2 rW1) (ix2 j k)
      = Cert.RelPos.wAt x2 k (66 +
          (Cert.RelPos.dTok (x0 (ix2 p (0 : Fin 5))) (x0 (ix2 p (1 : Fin 5))) (x0 (ix2 p (4 : Fin 5)))
            (x1 (ix2 (0 : Fin 5) q)) (x1 (ix2 (1 : Fin 5) q)) (x1 (ix2 (4 : Fin 5) q))).toNat) := by
  have hd := Cert.RelPos.dTok_lt (x0 (ix2 p (0 : Fin 5))) (x0 (ix2 p (1 : Fin 5))) (x0 (ix2 p (4 : Fin 5)))
    (x1 (ix2 (0 : Fin 5) q)) (x1 (ix2 (1 : Fin 5) q)) (x1 (ix2 (4 : Fin 5) q))
  have hL : ∀ j : Fin 66, k0_pay16 (F := Ideal) (k0_pay13 (F := Ideal) x0 x1) (ix2 (row p q) j)
      = hot (Cert.RelPos.dTok (x0 (ix2 p (0 : Fin 5))) (x0 (ix2 p (1 : Fin 5))) (x0 (ix2 p (4 : Fin 5)))
          (x1 (ix2 (0 : Fin 5) q)) (x1 (ix2 (1 : Fin 5) q)) (x1 (ix2 (4 : Fin 5) q))) j.val :=
    fun j => (hotRow66_apply _ p q j).trans (by rw [tokBucket_apply])
  refine (Finset.sum_congr rfl fun j _ => ?_).trans
    (hotSum66 (k0_pay16 (F := Ideal) (k0_pay13 (F := Ideal) x0 x1)) (row p q) _ hd hL (fun j => Cert.RelPos.wAt x2 k (66 + j.val)))
  exact congrArg (_ * ·) (w1_apply x2 j k)

/-- The symmetry-copy feature of the row token, as the third product's left operand reads it. -/
theorem symRow_apply (x0 : Vec Ideal S64x5 .i32) (p : Fin 64) (z : Fin 1) :
    k0_pay7 (F := Ideal) x0 (ix2 p z) = x0 (ix2 p (3 : Fin 5)) := by
  unfold k0_pay7
  refine (colOf_apply ![0, 3] _ slices_S64x5_o0_3_S64x1 3 rfl rfl p z).trans ?_
  unfold k0_pay4
  exact congrFun (shapeCast_self x0 shapeCasts_S64x5_S64x5) (ix2 p (3 : Fin 5))

/-- The symmetry-copy feature of the column token. -/
theorem symCol_apply (x1 : Vec Ideal S5x128 .i32) (z : Fin 1) (q : Fin 128) :
    k0_pay9 (F := Ideal) x1 (ix2 z q) = x1 (ix2 (3 : Fin 5) q) := by
  unfold k0_pay9
  refine (rowOf_apply ![3, 0] _ slices_S5x128_o3_0_S1x128 3 rfl rfl z q).trans ?_
  unfold k0_pay5
  exact congrFun (shapeCast_self x1 shapeCasts_S5x128_S5x128) (ix2 (3 : Fin 5) q)

/-- The entity-and-chain product: the entity bit times row 132, plus row 133 + dChain. -/
theorem chainProduct_apply (x0 : Vec Ideal S64x5 .i32) (x1 : Vec Ideal S5x128 .i32) (x2 : Vec Ideal S139x128 .f32)
    (p : Fin 64) (q : Fin 128) (k : Fin 128) :
    ∑ j : Fin 7, k0_pay17 (F := Ideal) (k0_pay7 (F := Ideal) x0) (k0_pay9 (F := Ideal) x1) (k0_pay11 (F := Ideal) x0 x1) (ix2 (row p q) j)
        * k0_pay15 (F := Ideal) (View.ld x2 rW2) (ix2 j k)
      = Cert.RelPos.bitVal (Cert.RelPos.sameEnt (x0 (ix2 p (2 : Fin 5))) (x1 (ix2 (2 : Fin 5) q))) * Cert.RelPos.wAt x2 k 132
        + Cert.RelPos.wAt x2 k (133 +
            (Cert.RelPos.dChain (x0 (ix2 p (2 : Fin 5))) (x0 (ix2 p (3 : Fin 5))) (x1 (ix2 (2 : Fin 5) q)) (x1 (ix2 (3 : Fin 5) q))).toNat) := by
  have hd := Cert.RelPos.dChain_lt (x0 (ix2 p (2 : Fin 5))) (x0 (ix2 p (3 : Fin 5))) (x1 (ix2 (2 : Fin 5) q)) (x1 (ix2 (3 : Fin 5) q))
  rw [Fin.sum_univ_succ]
  refine congrArg₂ (· + ·) ?_ ?_
  · rw [chainRow_zero, entBit_apply, bit_eq, w2_apply]
    rfl
  · refine (Finset.sum_congr rfl fun j _ => ?_).trans
      ((Cert.RelPos.onehot_sum _ hd (fun j : Fin 6 => Cert.RelPos.wAt x2 k (132 + (j.succ : Fin 7).val))).trans ?_)
    · rw [chainRow_succ, entBit_apply, symRow_apply, symCol_apply, w2_apply]
      exact congrArg (· * _) (hot_eq _ j.val (by have := j.isLt; omega))
    · show Cert.RelPos.wAt x2 k (132 + (_ + 1)) = _
      refine congrArg (Cert.RelPos.wAt x2 k) ?_
      omega

/-! ## The three stores -/

/-- The first store: the residue product, its rows regrouped. -/
theorem firstStore_apply (M : FVec Ideal S8192x128 .f32) (p : Fin 64) (q : Fin 128) (k : Fin 128) :
    k0_pay1 (F := Ideal) M (ix3 p q k) = M (ix2 (row p q) k) := by
  unfold k0_pay1
  exact cast_8192x128 M p q k

/-- The second store: what was read back plus the product with the 66-row slice. -/
theorem secondStore_apply (R : FVec Ideal S66x128 .bf16) (L : FVec Ideal S8192x66 .bf16) (acc : Vec Ideal S64x128x128 .f32)
    (p : Fin 64) (q : Fin 128) (k : Fin 128) :
    k0_pay2 (F := Ideal) R L acc (ix3 p q k) = acc (ix3 p q k) + ∑ j : Fin 66, L (ix2 (row p q) j) * R (ix2 j k) := by
  unfold k0_pay2
  refine (addf_apply _ _ _).trans (congrArg₂ (· + ·) ?_ ?_)
  · exact congrFun (shapeCast_self acc shapeCasts_S64x128x128_S64x128x128) (ix3 p q k)
  · exact (cast_8192x128 _ p q k).trans (matmul66_apply L R (row p q) k)

/-- The third store: what was read back plus the product with the 7-row slice. -/
theorem thirdStore_apply (R : FVec Ideal S7x128 .bf16) (L : FVec Ideal S8192x7 .bf16) (acc : Vec Ideal S64x128x128 .f32)
    (p : Fin 64) (q : Fin 128) (k : Fin 128) :
    k0_pay3 (F := Ideal) R L acc (ix3 p q k) = acc (ix3 p q k) + ∑ j : Fin 7, L (ix2 (row p q) j) * R (ix2 j k) := by
  unfold k0_pay3
  refine (addf_apply _ _ _).trans (congrArg₂ (· + ·) ?_ ?_)
  · exact congrFun (shapeCast_self acc shapeCasts_S64x128x128_S64x128x128) (ix3 p q k)
  · exact (cast_8192x128 _ p q k).trans (matmul7_apply L R (row p q) k)

/-! ## The entry -/

theorem zeros2 : (![0, 0] : Fin 2 → ℕ) = fun _ => 0 := by
  funext a
  match a with
  | ⟨0, _⟩ => rfl
  | ⟨1, _⟩ => rfl

/-- Entry (p, q, k) of the output block is the cell of row token p and column token q at channel k, the weights read
    from the 139 × 128 block. -/
theorem bodyOut_apply (x0 : Vec Ideal S64x5 .i32) (x1 : Vec Ideal S5x128 .i32) (x2 : Vec Ideal S139x128 .f32)
    (p : Fin 64) (q : Fin 128) (k : Fin 128) :
    bodyOut (F := Ideal) x0 x1 x2 (ix3 p q k)
      = Cert.RelPos.cell (x0 (ix2 p (0 : Fin 5))) (x0 (ix2 p (1 : Fin 5))) (x0 (ix2 p (2 : Fin 5))) (x0 (ix2 p (3 : Fin 5))) (x0 (ix2 p (4 : Fin 5)))
          (x1 (ix2 (0 : Fin 5) q)) (x1 (ix2 (1 : Fin 5) q)) (x1 (ix2 (2 : Fin 5) q)) (x1 (ix2 (3 : Fin 5) q)) (x1 (ix2 (4 : Fin 5) q))
          (Cert.RelPos.wAt x2 k) := by
  have h0 : View.ld x0 rRow = x0 := View.ld_unit_zero zeros2 _ x0
  have h1 : View.ld x1 rCol = x1 := View.ld_unit_zero zeros2 _ x1
  unfold bodyOut
  rw [h0, h1, thirdStore_apply, secondStore_apply, firstStore_apply, resProduct_apply, tokProduct_apply, chainProduct_apply]
  unfold Cert.RelPos.cell
  exact (add_assoc _ _ _).symm

end Cert.KernelIdeal.BlockValue

end
-- ==== Proof.InBlocks.lean ====
/-
  The three input blocks at a grid point, entry by entry, in terms of the program's argument arrays.

  Grid point t is (t / 8, t % 8). The row-feature array is the five feature rows stacked as columns (entry (P, j) is
  feature j of token P), so its block at t holds tokens 64 (t / 8) … 64 (t / 8) + 63; the column-feature array is its
  transpose, whose block at t holds tokens 128 (t % 8) … 128 (t % 8) + 127; the weight window is the whole matrix.
-/
import proofs.«423344_j87883620811381_3_alg».proof.Proof.KIDefs
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.InBlocks

open Cert.KernelIdeal Cert.KernelIdeal.Gen Cert.KernelIdeal.Hand
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## One feature row as a column, and the five columns side by side -/

/-- A feature row as a column: the 1 × 1024 row flattened to 1024 entries, then given a unit second axis. -/
def asCol (x : Vec F S1x1024 .i32) : Vec F S1024x1 .i32 :=
  broadcastInDim S1024x1 ![0] bcast_S1024_S1024x1_0 (shapeCast S1024 x shapeCasts_S1x1024_S1024)

/-- Entry (P, ·) of the column is entry (0, P) of the row: the unit axis carries no information, and flattening a
    1 × 1024 row keeps the position along it. -/
theorem asCol_apply (x : Vec F S1x1024 .i32) (P : Fin 1024) (u : Fin 1) :
    asCol (F := F) x (ix2 P u) = x (ix2 (0 : Fin 1) P) := by
  unfold asCol
  refine (broadcastInDim_apply _ _ _ _ (ix1 P) (fun a => ?_)).trans ?_
  · match a with
    | ⟨0, _⟩ =>
      show P.val = if (1024 : Nat) = 1 then 0 else P.val
      exact (if_neg (by decide)).symm
  · exact shapeCast_1a_a_apply x _ P

/-- The five feature columns side by side: a 1024 × 5 array whose column j is feature row j. -/
def stacked (x0 x1 x2 x3 x4 : Vec F S1x1024 .i32) : Vec F S1024x5 .i32 :=
  concatenate S1024x5 1 [⟨S1024x1, asCol (F := F) x0⟩, ⟨S1024x1, asCol (F := F) x1⟩, ⟨S1024x1, asCol (F := F) x2⟩, ⟨S1024x1, asCol (F := F) x3⟩, ⟨S1024x1, asCol (F := F) x4⟩]
    concatenates_S1024x1_S1024x1_S1024x1_S1024x1_S1024x1_S1024x5_d1

/-! Column j of the side-by-side array lies in piece j (each piece is one column wide, so j columns come before it), at
    that piece's only column; the row coordinate is untouched. -/

theorem stacked_at0 (x0 x1 x2 x3 x4 : Vec F S1x1024 .i32) (P : Fin 1024) :
    stacked (F := F) x0 x1 x2 x3 x4 (ix2 P (0 : Fin 5)) = x0 (ix2 (0 : Fin 1) P) := by
  unfold stacked
  refine (concatenate_apply_piece (t := S1024x5) 1 _ _ _ 0 ?_ S1024x1 (asCol (F := F) x0) ?_ rfl 0 ?_ (ix2 P (0 : Fin 1)) (fun b hb => ?_) ?_).trans (asCol_apply x0 P 0)
  · show (0 : Nat) < 5; decide
  · rfl
  · rfl
  · match b with
    | ⟨0, _⟩ => rfl
    | ⟨1, _⟩ => exact absurd rfl hb
  · rfl

theorem stacked_at1 (x0 x1 x2 x3 x4 : Vec F S1x1024 .i32) (P : Fin 1024) :
    stacked (F := F) x0 x1 x2 x3 x4 (ix2 P (1 : Fin 5)) = x1 (ix2 (0 : Fin 1) P) := by
  unfold stacked
  refine (concatenate_apply_piece (t := S1024x5) 1 _ _ _ 1 ?_ S1024x1 (asCol (F := F) x1) ?_ rfl 1 ?_ (ix2 P (0 : Fin 1)) (fun b hb => ?_) ?_).trans (asCol_apply x1 P 0)
  · show (1 : Nat) < 5; decide
  · rfl
  · rfl
  · match b with
    | ⟨0, _⟩ => rfl
    | ⟨1, _⟩ => exact absurd rfl hb
  · rfl

theorem stacked_at2 (x0 x1 x2 x3 x4 : Vec F S1x1024 .i32) (P : Fin 1024) :
    stacked (F := F) x0 x1 x2 x3 x4 (ix2 P (2 : Fin 5)) = x2 (ix2 (0 : Fin 1) P) := by
  unfold stacked
  refine (concatenate_apply_piece (t := S1024x5) 1 _ _ _ 2 ?_ S1024x1 (asCol (F := F) x2) ?_ rfl 2 ?_ (ix2 P (0 : Fin 1)) (fun b hb => ?_) ?_).trans (asCol_apply x2 P 0)
  · show (2 : Nat) < 5; decide
  · rfl
  · rfl
  · match b with
    | ⟨0, _⟩ => rfl
    | ⟨1, _⟩ => exact absurd rfl hb
  · rfl

theorem stacked_at3 (x0 x1 x2 x3 x4 : Vec F S1x1024 .i32) (P : Fin 1024) :
    stacked (F := F) x0 x1 x2 x3 x4 (ix2 P (3 : Fin 5)) = x3 (ix2 (0 : Fin 1) P) := by
  unfold stacked
  refine (concatenate_apply_piece (t := S1024x5) 1 _ _ _ 3 ?_ S1024x1 (asCol (F := F) x3) ?_ rfl 3 ?_ (ix2 P (0 : Fin 1)) (fun b hb => ?_) ?_).trans (asCol_apply x3 P 0)
  · show (3 : Nat) < 5; decide
  · rfl
  · rfl
  · match b with
    | ⟨0, _⟩ => rfl
    | ⟨1, _⟩ => exact absurd rfl hb
  · rfl

theorem stacked_at4 (x0 x1 x2 x3 x4 : Vec F S1x1024 .i32) (P : Fin 1024) :
    stacked (F := F) x0 x1 x2 x3 x4 (ix2 P (4 : Fin 5)) = x4 (ix2 (0 : Fin 1) P) := by
  unfold stacked
  refine (concatenate_apply_piece (t := S1024x5) 1 _ _ _ 4 ?_ S1024x1 (asCol (F := F) x4) ?_ rfl 4 ?_ (ix2 P (0 : Fin 1)) (fun b hb => ?_) ?_).trans (asCol_apply x4 P 0)
  · show (4 : Nat) < 5; decide
  · rfl
  · rfl
  · match b with
    | ⟨0, _⟩ => rfl
    | ⟨1, _⟩ => exact absurd rfl hb
  · rfl

/-! ## The arrays the region finds, in terms of the launch memory -/

/-- The row-feature array is the five argument rows, each made a column, side by side. -/
theorem rowFeatures_eq (c : Dev nD) :
    (V m c main_v10 : S1024x5.Idx → Elt F .i32) = stacked (F := F) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [V, V0]
  simp only [hostOps0, List.flatten_cons, List.flatten_nil, List.append_nil]
  after_results
  dsimp only
  simp only [Matrix.cons_val]
  repeat (first
    | rw [StableHlo.unary_result] | rw [StableHlo.reshape_result]
    | (rw [StableHlo.unary_result_ne]; rotate_left; decide)
    | (rw [StableHlo.reshape_result_ne]; rotate_left; decide))
  rfl

/-- The column-feature array is the transpose of the same side-by-side array. -/
theorem colFeatures_eq (c : Dev nD) :
    (V m c main_v11 : S5x1024.Idx → Elt F .i32) = transpose S5x1024 [1, 0] (stacked (F := F) (m ((c : Thread nD τ).loc main_arg0)) (m ((c : Thread nD τ).loc main_arg1)) (m ((c : Thread nD τ).loc main_arg2)) (m ((c : Thread nD τ).loc main_arg3)) (m ((c : Thread nD τ).loc main_arg4))) transposes_S1024x5_S5x1024_1_0 := by
  dsimp only [V, V0]
  simp only [hostOps0, List.flatten_cons, List.flatten_nil, List.append_nil]
  after_results
  dsimp only
  simp only [Matrix.cons_val]
  repeat (first
    | rw [StableHlo.unary_result] | rw [StableHlo.reshape_result]
    | (rw [StableHlo.unary_result_ne]; rotate_left; decide)
    | (rw [StableHlo.reshape_result_ne]; rotate_left; decide))
  rfl

/-- Entry (j, Q) of the column-feature array is entry (Q, j) of the row-feature array. -/
theorem colFeatures_at (c : Dev nD) (j : Fin 5) (Q : Fin 1024) :
    (V m c main_v11 : Vec F S5x1024 .i32) (ix2 j Q) = (V m c main_v10 : Vec F S1024x5 .i32) (ix2 Q j) := by
  rw [colFeatures_eq, rowFeatures_eq]
  exact transpose_ix2_apply _ _ j Q

/-! Entry (P, j) of the row-feature array is feature j of token P. -/

theorem rows_at0 (c : Dev nD) (P : Fin 1024) :
    (V m c main_v10 : Vec F S1024x5 .i32) (ix2 P (0 : Fin 5)) = (m ((c : Thread nD τ).loc main_arg0) : Vec F S1x1024 .i32) (ix2 (0 : Fin 1) P) := by
  rw [rowFeatures_eq]
  exact stacked_at0 _ _ _ _ _ P

theorem rows_at1 (c : Dev nD) (P : Fin 1024) :
    (V m c main_v10 : Vec F S1024x5 .i32) (ix2 P (1 : Fin 5)) = (m ((c : Thread nD τ).loc main_arg1) : Vec F S1x1024 .i32) (ix2 (0 : Fin 1) P) := by
  rw [rowFeatures_eq]
  exact stacked_at1 _ _ _ _ _ P

theorem rows_at2 (c : Dev nD) (P : Fin 1024) :
    (V m c main_v10 : Vec F S1024x5 .i32) (ix2 P (2 : Fin 5)) = (m ((c : Thread nD τ).loc main_arg2) : Vec F S1x1024 .i32) (ix2 (0 : Fin 1) P) := by
  rw [rowFeatures_eq]
  exact stacked_at2 _ _ _ _ _ P

theorem rows_at3 (c : Dev nD) (P : Fin 1024) :
    (V m c main_v10 : Vec F S1024x5 .i32) (ix2 P (3 : Fin 5)) = (m ((c : Thread nD τ).loc main_arg3) : Vec F S1x1024 .i32) (ix2 (0 : Fin 1) P) := by
  rw [rowFeatures_eq]
  exact stacked_at3 _ _ _ _ _ P

theorem rows_at4 (c : Dev nD) (P : Fin 1024) :
    (V m c main_v10 : Vec F S1024x5 .i32) (ix2 P (4 : Fin 5)) = (m ((c : Thread nD τ).loc main_arg4) : Vec F S1x1024 .i32) (ix2 (0 : Fin 1) P) := by
  rw [rowFeatures_eq]
  exact stacked_at4 _ _ _ _ _ P

/-! Entry (j, Q) of the column-feature array is feature j of token Q. -/

theorem cols_at0 (c : Dev nD) (Q : Fin 1024) :
    (V m c main_v11 : Vec F S5x1024 .i32) (ix2 (0 : Fin 5) Q) = (m ((c : Thread nD τ).loc main_arg0) : Vec F S1x1024 .i32) (ix2 (0 : Fin 1) Q) :=
  (colFeatures_at m c 0 Q).trans (rows_at0 m c Q)

theorem cols_at1 (c : Dev nD) (Q : Fin 1024) :
    (V m c main_v11 : Vec F S5x1024 .i32) (ix2 (1 : Fin 5) Q) = (m ((c : Thread nD τ).loc main_arg1) : Vec F S1x1024 .i32) (ix2 (0 : Fin 1) Q) :=
  (colFeatures_at m c 1 Q).trans (rows_at1 m c Q)

theorem cols_at2 (c : Dev nD) (Q : Fin 1024) :
    (V m c main_v11 : Vec F S5x1024 .i32) (ix2 (2 : Fin 5) Q) = (m ((c : Thread nD τ).loc main_arg2) : Vec F S1x1024 .i32) (ix2 (0 : Fin 1) Q) :=
  (colFeatures_at m c 2 Q).trans (rows_at2 m c Q)

theorem cols_at3 (c : Dev nD) (Q : Fin 1024) :
    (V m c main_v11 : Vec F S5x1024 .i32) (ix2 (3 : Fin 5) Q) = (m ((c : Thread nD τ).loc main_arg3) : Vec F S1x1024 .i32) (ix2 (0 : Fin 1) Q) :=
  (colFeatures_at m c 3 Q).trans (rows_at3 m c Q)

theorem cols_at4 (c : Dev nD) (Q : Fin 1024) :
    (V m c main_v11 : Vec F S5x1024 .i32) (ix2 (4 : Fin 5) Q) = (m ((c : Thread nD τ).loc main_arg4) : Vec F S1x1024 .i32) (ix2 (0 : Fin 1) Q) :=
  (colFeatures_at m c 4 Q).trans (rows_at4 m c Q)

/-- No operation before the region writes the weight matrix: the region finds it as launched. -/
theorem weights_kept (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.Forall, StableHlo.unary_writes,
      StableHlo.reshape_writes, StableHlo.nary_writes, Finset.mem_singleton]
    repeat' apply And.intro
    all_goals exact StableHlo.devRef_ne_of_ne (by decide)))

/-! ## The blocks at a grid point -/

/-- The token in row `p` of the row block at grid point `t`. -/
def rowTok (t : Fin cfg0.N) (p : Fin 64) : Fin 1024 :=
  ⟨64 * (t.val / 8) + p.val, by have h := t.isLt; have h2 : cfg0.N = 128 := N_0; omega⟩

/-- The token in column `q` of the column block at grid point `t`. -/
def colTok (t : Fin cfg0.N) (q : Fin 128) : Fin 1024 :=
  ⟨128 * (t.val % 8) + q.val, by omega⟩

/-- The row block at t = (i, ·) is block (i, 0) of the row-feature array in 64 × 5 blocks: its entry (p, j) is the
    array's entry (64 i + p, j). -/
theorem rowBlock_at (c : Dev nD) (t : Fin cfg0.N) (p : Fin 64) (j : Fin 5) :
    (iblk m c 0 t : Vec F S64x5 .i32) (ix2 p j) = (V m c main_v10 : Vec F S1024x5 .i32) (ix2 (rowTok t p) j) := by
  have e : ∀ t : Fin cfg0.N, win0_0.index t (0 : Fin 2) = t.val / 8 ∧ win0_0.index t (1 : Fin 2) = 0 :=
    (by decide +kernel : ∀ t : Fin grid0.N, _)
  obtain ⟨h0, h1⟩ := e t
  show V m c main_v10 (((cfg0.win 0).blk t).view.emb (ix2 p j)) = V m c main_v10 _
  refine congrArg _ (funext fun a => Fin.ext ?_)
  match a with
  | ⟨0, _⟩ => show win0_0.index t (0 : Fin 2) * 64 + 1 * p.val = 64 * (t.val / 8) + p.val; omega
  | ⟨1, _⟩ => show win0_0.index t (1 : Fin 2) * 5 + 1 * j.val = j.val; omega

/-- The column block at t = (·, j') is block (0, j') of the column-feature array in 5 × 128 blocks: its entry (j, q) is
    the array's entry (j, 128 j' + q). -/
theorem colBlock_at (c : Dev nD) (t : Fin cfg0.N) (j : Fin 5) (q : Fin 128) :
    (iblk m c 1 t : Vec F S5x128 .i32) (ix2 j q) = (V m c main_v11 : Vec F S5x1024 .i32) (ix2 j (colTok t q)) := by
  have e : ∀ t : Fin cfg0.N, win0_1.index t (0 : Fin 2) = 0 ∧ win0_1.index t (1 : Fin 2) = t.val % 8 :=
    (by decide +kernel : ∀ t : Fin grid0.N, _)
  obtain ⟨h0, h1⟩ := e t
  show V m c main_v11 (((cfg0.win 1).blk t).view.emb (ix2 j q)) = V m c main_v11 _
  refine congrArg _ (funext fun a => Fin.ext ?_)
  match a with
  | ⟨0, _⟩ => show win0_1.index t (0 : Fin 2) * 5 + 1 * j.val = j.val; omega
  | ⟨1, _⟩ => show win0_1.index t (1 : Fin 2) * 128 + 1 * q.val = 128 * (t.val % 8) + q.val; omega

/-- The weight block at every point is block (0, 0) of the weight matrix in blocks of its own size: all of it. -/
theorem weightBlock_whole (c : Dev nD) (t : Fin cfg0.N) :
    (iblk m c 2 t : Vec F S139x128 .f32) = (V m c main_arg5 : Vec F S139x128 .f32) := by
  have e : ∀ t : Fin cfg0.N, win0_2.index t (0 : Fin 2) = 0 ∧ win0_2.index t (1 : Fin 2) = 0 :=
    (by decide +kernel : ∀ t : Fin grid0.N, _)
  obtain ⟨h0, h1⟩ := e t
  funext y
  show V m c main_arg5 (((cfg0.win 2).blk t).view.emb y) = V m c main_arg5 y
  refine congrArg _ (funext fun a => Fin.ext ?_)
  match a with
  | ⟨0, _⟩ => show win0_2.index t (0 : Fin 2) * 139 + 1 * (y 0).val = (y 0).val; omega
  | ⟨1, _⟩ => show win0_2.index t (1 : Fin 2) * 128 + 1 * (y 1).val = (y 1).val; omega

/-! ## The blocks' entries in terms of the argument arrays -/

theorem row_entry0 (c : Dev nD) (t : Fin cfg0.N) (p : Fin 64) :
    (iblk m c 0 t : Vec F S64x5 .i32) (ix2 p (0 : Fin 5)) = (m ((c : Thread nD τ).loc main_arg0) : Vec F S1x1024 .i32) (ix2 (0 : Fin 1) (rowTok t p)) :=
  (rowBlock_at m c t p 0).trans (rows_at0 m c (rowTok t p))
theorem row_entry1 (c : Dev nD) (t : Fin cfg0.N) (p : Fin 64) :
    (iblk m c 0 t : Vec F S64x5 .i32) (ix2 p (1 : Fin 5)) = (m ((c : Thread nD τ).loc main_arg1) : Vec F S1x1024 .i32) (ix2 (0 : Fin 1) (rowTok t p)) :=
  (rowBlock_at m c t p 1).trans (rows_at1 m c (rowTok t p))
theorem row_entry2 (c : Dev nD) (t : Fin cfg0.N) (p : Fin 64) :
    (iblk m c 0 t : Vec F S64x5 .i32) (ix2 p (2 : Fin 5)) = (m ((c : Thread nD τ).loc main_arg2) : Vec F S1x1024 .i32) (ix2 (0 : Fin 1) (rowTok t p)) :=
  (rowBlock_at m c t p 2).trans (rows_at2 m c (rowTok t p))
theorem row_entry3 (c : Dev nD) (t : Fin cfg0.N) (p : Fin 64) :
    (iblk m c 0 t : Vec F S64x5 .i32) (ix2 p (3 : Fin 5)) = (m ((c : Thread nD τ).loc main_arg3) : Vec F S1x1024 .i32) (ix2 (0 : Fin 1) (rowTok t p)) :=
  (rowBlock_at m c t p 3).trans (rows_at3 m c (rowTok t p))
theorem row_entry4 (c : Dev nD) (t : Fin cfg0.N) (p : Fin 64) :
    (iblk m c 0 t : Vec F S64x5 .i32) (ix2 p (4 : Fin 5)) = (m ((c : Thread nD τ).loc main_arg4) : Vec F S1x1024 .i32) (ix2 (0 : Fin 1) (rowTok t p)) :=
  (rowBlock_at m c t p 4).trans (rows_at4 m c (rowTok t p))

theorem col_entry0 (c : Dev nD) (t : Fin cfg0.N) (q : Fin 128) :
    (iblk m c 1 t : Vec F S5x128 .i32) (ix2 (0 : Fin 5) q) = (m ((c : Thread nD τ).loc main_arg0) : Vec F S1x1024 .i32) (ix2 (0 : Fin 1) (colTok t q)) :=
  (colBlock_at m c t 0 q).trans (cols_at0 m c (colTok t q))
theorem col_entry1 (c : Dev nD) (t : Fin cfg0.N) (q : Fin 128) :
    (iblk m c 1 t : Vec F S5x128 .i32) (ix2 (1 : Fin 5) q) = (m ((c : Thread nD τ).loc main_arg1) : Vec F S1x1024 .i32) (ix2 (0 : Fin 1) (colTok t q)) :=
  (colBlock_at m c t 1 q).trans (cols_at1 m c (colTok t q))
theorem col_entry2 (c : Dev nD) (t : Fin cfg0.N) (q : Fin 128) :
    (iblk m c 1 t : Vec F S5x128 .i32) (ix2 (2 : Fin 5) q) = (m ((c : Thread nD τ).loc main_arg2) : Vec F S1x1024 .i32) (ix2 (0 : Fin 1) (colTok t q)) :=
  (colBlock_at m c t 2 q).trans (cols_at2 m c (colTok t q))
theorem col_entry3 (c : Dev nD) (t : Fin cfg0.N) (q : Fin 128) :
    (iblk m c 1 t : Vec F S5x128 .i32) (ix2 (3 : Fin 5) q) = (m ((c : Thread nD τ).loc main_arg3) : Vec F S1x1024 .i32) (ix2 (0 : Fin 1) (colTok t q)) :=
  (colBlock_at m c t 3 q).trans (cols_at3 m c (colTok t q))
theorem col_entry4 (c : Dev nD) (t : Fin cfg0.N) (q : Fin 128) :
    (iblk m c 1 t : Vec F S5x128 .i32) (ix2 (4 : Fin 5) q) = (m ((c : Thread nD τ).loc main_arg4) : Vec F S1x1024 .i32) (ix2 (0 : Fin 1) (colTok t q)) :=
  (colBlock_at m c t 4 q).trans (cols_at4 m c (colTok t q))

/-- The weight window's block is the whole weight matrix as launched, at every point. -/
theorem w_block (c : Dev nD) (t : Fin cfg0.N) :
    (iblk m c 2 t : Vec F S139x128 .f32) = (m ((c : Thread nD τ).loc main_arg5) : Vec F S139x128 .f32) :=
  (weightBlock_whole m c t).trans (weights_kept m c)

end Cert.KernelIdeal.InBlocks

end
-- ==== Proof.OutArray.lean ====
/-
  From the output blocks to the result array.

  Grid point t = (t / 8, t % 8) writes the 64 × 128 × 128 block of the result whose rows are the tokens
  64 (t / 8) … 64 (t / 8) + 63, whose columns are the tokens 128 (t % 8) … 128 (t % 8) + 127, and whose last axis is
  all 128 channels. Entry (p, q, k) of that block is the embedding's cell of row token 64 (t / 8) + p and column token
  128 (t % 8) + q at channel k, so every block is the restriction of ONE function of the index, the embedding read at
  (P, Q, k). The 16 × 8 blocks tile the 1024 × 1024 × 128 array: index (P, Q, k) lies in the block of the point
  8 (P / 64) + Q / 128. Hence the array ends holding the embedding everywhere, and the final reshape, which only adds
  a leading axis of length one, carries it entry by entry to the [1, 1024, 1024, 128] result.
-/
import proofs.«423344_j87883620811381_3_alg».proof.Proof.KIDefs
import proofs.«423344_j87883620811381_3_alg».proof.Proof.Spec
import proofs.«423344_j87883620811381_3_alg».proof.Proof.BlockValue
import proofs.«423344_j87883620811381_3_alg».proof.Proof.InBlocks
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.OutArray

open Cert.KernelIdeal Cert.KernelIdeal.Gen Cert.KernelIdeal.Hand Cert.KernelIdeal.InBlocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The three-dimensional result as one function of the index -/

/-- The embedding as a [1024, 1024, 128] array: entry (P, Q, k) is the cell of tokens P and Q at channel k. -/
def G3 (a r e s t : IVec S1x1024 32) (W : FVec Ideal S139x128 .f32) : FVec Ideal S1024x1024x128 .f32 :=
  fun i => Cert.RelPos.cellAt a r e s t W ⟨(i 0).val, (i 0).isLt⟩ ⟨(i 1).val, (i 1).isLt⟩ ⟨(i 2).val, (i 2).isLt⟩

theorem G3_apply (a r e s t : IVec S1x1024 32) (W : FVec Ideal S139x128 .f32) (P Q : Fin 1024) (k : Fin 128) :
    G3 a r e s t W (ix3 P Q k) = Cert.RelPos.cellAt a r e s t W P Q k := rfl

/-- Two cells of the same arrays agree when their tokens and channels have the same numbers. -/
theorem cellAt_congr (a r e s t : IVec S1x1024 32) (W : FVec Ideal S139x128 .f32) {P P' Q Q' : Fin 1024} {k k' : Fin 128}
    (hP : P.val = P'.val) (hQ : Q.val = Q'.val) (hk : k.val = k'.val) :
    Cert.RelPos.cellAt a r e s t W P Q k = Cert.RelPos.cellAt a r e s t W P' Q' k' := by
  obtain rfl := Fin.ext hP
  obtain rfl := Fin.ext hQ
  obtain rfl := Fin.ext hk
  rfl

/-! ## Where the output block of a grid point sits -/

/-- The output window's block index at point t is (t / 8, t % 8, 0), decided over the 128 points. -/
theorem out_index : ∀ t : Fin cfg0.N, win0_3.index t (0 : Fin 3) = t.val / 8 ∧ win0_3.index t (1 : Fin 3) = t.val % 8
    ∧ win0_3.index t (2 : Fin 3) = 0 :=
  (by decide +kernel : ∀ t : Fin grid0.N, win0_3.index t (0 : Fin 3) = t.val / 8 ∧ win0_3.index t (1 : Fin 3) = t.val % 8
    ∧ win0_3.index t (2 : Fin 3) = 0)

/-! ## One entry of what a grid point leaves -/

/-- Entry (p, q, k) of the block the body leaves at point t is the cell of the row block's token p and the column
    block's token q at channel k, read off the program's argument arrays: the block entry is the cell of the two
    blocks' feature entries, each of which is an entry of one of the five feature rows, and the weight block is the
    weight matrix. -/
theorem block_entry (c : Dev nD) (t : Fin cfg0.N) (p : Fin 64) (q : Fin 128) (k : Fin 128) :
    bodyOut (F := Ideal) (iblk m c 0 t) (iblk m c 1 t) (iblk m c 2 t) (ix3 p q k)
      = Cert.RelPos.cellAt (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (rowTok t p) (colTok t q) k := by
  refine (Cert.KernelIdeal.BlockValue.bodyOut_apply (iblk m c 0 t) (iblk m c 1 t) (iblk m c 2 t) p q k).trans ?_
  rw [row_entry0 m c t p, row_entry1 m c t p, row_entry2 m c t p, row_entry3 m c t p, row_entry4 m c t p,
    col_entry0 m c t q, col_entry1 m c t q, col_entry2 m c t q, col_entry3 m c t q, col_entry4 m c t q, w_block m c t]
  rfl

/-! ## What a grid point writes back is its block of the embedding -/

/-- What point t writes back is the block of the embedding at t. The output window is written back at every point
    and is never clipped, so the write-back is all the body leaves; its entry (p, q, k) is the cell of tokens
    64 (t / 8) + p and 128 (t % 8) + q at channel k, and block coordinate (p, q, k) of the window at t is the array
    index (64 (t / 8) + p, 128 (t % 8) + q, k): a block's coordinate is the block index times the block's size plus
    the coordinate inside the block. -/
theorem flushed_eq (c : Dev nD) (t : Fin cfg0.N) :
    (dats m 0 c).flushed 3 t = ((cfg0.win 3).blk t).view.read (Elt Ideal)
      (G3 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  show (cfg0.win 3).cut (grid0.coords t) ((dats m 0 c).after 3 t) = _
  rw [after0_3]
  obtain ⟨e0, e1, e2⟩ := out_index t
  refine funext fun (j : S64x128x128.Idx) => ?_
  obtain ⟨p, q, k, rfl⟩ : ∃ (p : Fin 64) (q : Fin 128) (k : Fin 128), j = ix3 p q k := ⟨j 0, j 1, j 2, eq_ix3 j⟩
  show bodyOut (F := Ideal) (iblk m c 0 t) (iblk m c 1 t) (iblk m c 2 t) (ix3 p q k)
    = G3 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 3).blk t).view.emb (ix3 p q k))
  refine (block_entry m c t p q k).trans ?_
  refine cellAt_congr _ _ _ _ _ _ ?_ ?_ ?_
  · show 64 * (t.val / 8) + p.val = win0_3.index t (0 : Fin 3) * 64 + 1 * p.val
    omega
  · show 128 * (t.val % 8) + q.val = win0_3.index t (1 : Fin 3) * 128 + 1 * q.val
    omega
  · show k.val = win0_3.index t (2 : Fin 3) * 128 + 1 * k.val
    omega

/-! ## The blocks tile the array -/

/-- An index of the array is in point t's block iff each coordinate is in the block's range on its axis. -/
theorem mem_blk (t : Fin cfg0.N) (i : S1024x1024x128.Idx) :
    i ∈ ((cfg0.win 3).blk t).view.set ↔ ∀ a : Fin 3, win0_3.index t a * S64x128x128.size a ≤ (i a).val
      ∧ (i a).val < win0_3.index t a * S64x128x128.size a + S64x128x128.size a := by
  show i ∈ ((View.whole main_v12).slice (win0_3.rect t)).set ↔ _
  rw [View.set_slice_whole, Rect.mem_set_unit]
  exact Iff.rfl

/-- Every index (P, Q, k) of the array lies in the block of the point 8 (P / 64) + Q / 128, a point that writes back. -/
theorem cover (i : S1024x1024x128.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  have hi2 : (i 2).val < 128 := (i 2).isLt
  have hN : cfg0.N = 128 := N_0
  obtain ⟨t, ht⟩ : ∃ t : Fin cfg0.N, t.val = 8 * ((i 0).val / 64) + (i 1).val / 128 :=
    ⟨⟨8 * ((i 0).val / 64) + (i 1).val / 128, by omega⟩, rfl⟩
  obtain ⟨e0, e1, e2⟩ := out_index t
  refine ⟨t, flush0_3 t, ?_⟩
  rw [mem_blk]
  intro a
  match a with
  | ⟨0, _⟩ =>
    show win0_3.index t (0 : Fin 3) * 64 ≤ (i 0).val ∧ (i 0).val < win0_3.index t (0 : Fin 3) * 64 + 64
    omega
  | ⟨1, _⟩ =>
    show win0_3.index t (1 : Fin 3) * 128 ≤ (i 1).val ∧ (i 1).val < win0_3.index t (1 : Fin 3) * 128 + 128
    omega
  | ⟨2, _⟩ =>
    show win0_3.index t (2 : Fin 3) * 128 ≤ (i 2).val ∧ (i 2).val < win0_3.index t (2 : Fin 3) * 128 + 128
    omega

/-! ## The array after the region -/

/-- After the last grid point the result array holds the embedding at every index. -/
theorem final (c : Dev nD) :
    (dats m 0 c).arrAt 3 cfg0.N
      = G3 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (dats m 0 c).arrAt_eq_of_cover 3
    (G3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
    (fun t _ => flushed_eq m c t) cover

/-! ## The reshape after the region -/

/-- The program's result: the host reshape after the region reads the [1024, 1024, 128] array in row-major order into
    [1, 1024, 1024, 128], so entry (0, P, Q, k) of the result is entry (P, Q, k) of the array the region leaves, which
    is the cell of tokens P and Q at channel k; that is the embedding's entry (0, P, Q, k). -/
theorem result_v13 (c : Dev nD) :
    Pipeline.afterTail₀ cfgs (dats m) 0 (V0 m) [hostOps1] c main_v13
      = Cert.RelPos.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v13) = _
  after_results
  have hA : Pipeline.withArrays (cfgs 0).spec c (V0 m c) (fun w => (dats m 0 c).arrAt w (cfgs 0).N) (Proc.devRef .tc main_v12)
      = G3 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
    (Pipeline.withArrays_arr spec0 launch0.win.arr_inj c _ _ 3).trans (final m c)
  refine funext fun (i : S1x1024x1024x128.Idx) => ?_
  obtain ⟨z, P, Q, k, rfl⟩ : ∃ (z : Fin 1) (P Q : Fin 1024) (k : Fin 128), i = ix4 z P Q k := ⟨i 0, i 1, i 2, i 3, eq_ix4 i⟩
  show shapeCast S1x1024x1024x128
      (Pipeline.withArrays (cfgs 0).spec c (V0 m c) (fun w => (dats m 0 c).arrAt w (cfgs 0).N) (Proc.devRef .tc main_v12))
      shapeCasts_S1024x1024x128_S1x1024x1024x128 (ix4 z P Q k) = _
  refine (shapeCast_abc_1abc_apply _ shapeCasts_S1024x1024x128_S1x1024x1024x128 z P Q k).trans ?_
  exact congrFun hA (ix3 P Q k)

end Cert.KernelIdeal.OutArray

end
-- ==== Proof.RefValue.lean ====
/-
  The reference's result, cell by cell.

  The reference computes, for every pair of tokens (P, Q), three bucket words and one bit from the five feature rows —
  each row first spread along the rows and along the columns of the pair grid, then compared, subtracted, shifted and
  clamped pointwise — and reads the embedding off the weight matrix by three row lookups (rows 0 … 65 by the residue
  bucket, rows 66 … 131 by the token bucket, rows 133 … 138 by the chain bucket) plus the bit times row 132. This file
  reads that computation at one index (0, P, Q, k): the integer stages give the buckets of the shared specification,
  a lookup of a word that is in range reads exactly the row the word names (no clamping, and no wrap of a negative
  index, since a bucket is never negative), and the four terms add up, in the order residue, token, entity, chain,
  to the specification's cell.
-/
import proofs.«423344_j87883620811381_3_alg».proof.Proof.Gen.ReferenceIdeal.Read
import proofs.«423344_j87883620811381_3_alg».proof.Proof.Spec
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read Cert.RelPos

/-- A feature row: 32-bit words over [1, 1024]. -/
abbrev Row := (⟨S1x1024, .i32⟩ : BufTy).Contents (Elt Ideal)
/-- The weight matrix: extended reals over [139, 128]. -/
abbrev Wts := (⟨S139x128, .f32⟩ : BufTy).Contents (Elt Ideal)

/-! ## A feature row spread over the pair grid

A row feature is first laid along the rows (its value for the row token repeated across a row of the grid) and along
the columns (its value for the column token repeated down a column). -/

/-- The feature spread along rows, at pair (P, Q), is the feature of P. -/
theorem alongRows_apply (x : Row) (P Q : Fin 1024) :
    val_main_v2 (F := Ideal) x (ix3 (0 : Fin 1) P Q) = x (ix2 (0 : Fin 1) P) := by
  rw [val_main_v2_apply, val_main_v0_apply]
  exact congrArg x (funext fun a => Fin.ext (by match a with | ⟨0, _⟩ => rfl | ⟨1, _⟩ => rfl))

/-- The feature spread along columns, at pair (P, Q), is the feature of Q. -/
theorem alongCols_apply (x : Row) (P Q : Fin 1024) :
    val_main_v3 (F := Ideal) x (ix3 (0 : Fin 1) P Q) = x (ix2 (0 : Fin 1) Q) := by
  rw [val_main_v3_apply, val_main_v1_apply]
  exact congrArg x (funext fun a => Fin.ext (by match a with | ⟨0, _⟩ => rfl | ⟨1, _⟩ => rfl))

/-- "Same feature value" at pair (P, Q). -/
theorem sameFeature_apply (x : Row) (P Q : Fin 1024) :
    val_main_v4 (F := Ideal) x (ix3 (0 : Fin 1) P Q) = IntOp.cmpi .eq (x (ix2 (0 : Fin 1) P)) (x (ix2 (0 : Fin 1) Q)) := by
  rw [val_main_v4_apply, alongRows_apply, alongCols_apply]

/-- The offset of a feature between P and Q, shifted by 32 and clamped to [0, 64]. -/
theorem clip64_apply (x : Row) (P Q : Fin 1024) :
    val_main_v22 (F := Ideal) x (ix3 (0 : Fin 1) P Q)
      = relClip 32#32 64#32 (x (ix2 (0 : Fin 1) P)) (x (ix2 (0 : Fin 1) Q)) := by
  rw [val_main_v22_apply, val_main_call0_v4_apply, val_main_call0_v3_apply, val_main_c_1_apply,
    val_main_call0_v2_apply, val_main_call0_v1_apply, val_main_call0_v0_apply, val_main_c_0_apply,
    val_main_v21_apply, val_main_v20_apply, val_main_c_apply, val_main_v19_apply]
  rw [show val_main_v17 (F := Ideal) x (ix3 (0 : Fin 1) P Q) = x (ix2 (0 : Fin 1) P) from alongRows_apply x P Q,
    show val_main_v18 (F := Ideal) x (ix3 (0 : Fin 1) P Q) = x (ix2 (0 : Fin 1) Q) from alongCols_apply x P Q]
  rfl

/-- The token offset between P and Q, shifted by 32 and clamped to [0, 64] (the same arithmetic, on another row). -/
theorem clip64'_apply (x : Row) (P Q : Fin 1024) :
    val_main_v32 (F := Ideal) x (ix3 (0 : Fin 1) P Q)
      = relClip 32#32 64#32 (x (ix2 (0 : Fin 1) P)) (x (ix2 (0 : Fin 1) Q)) := by
  rw [val_main_v32_apply, val_main_call2_v4_apply, val_main_call2_v3_apply, val_main_c_5_apply,
    val_main_call2_v2_apply, val_main_call2_v1_apply, val_main_call2_v0_apply, val_main_c_4_apply,
    val_main_v31_apply, val_main_v30_apply, val_main_c_3_apply, val_main_v29_apply]
  rw [show val_main_v27 (F := Ideal) x (ix3 (0 : Fin 1) P Q) = x (ix2 (0 : Fin 1) P) from alongRows_apply x P Q,
    show val_main_v28 (F := Ideal) x (ix3 (0 : Fin 1) P Q) = x (ix2 (0 : Fin 1) Q) from alongCols_apply x P Q]
  rfl

/-- The symmetry-copy offset between P and Q, shifted by 2 and clamped to [0, 4]. -/
theorem clip4_apply (x : Row) (P Q : Fin 1024) :
    val_main_v41 (F := Ideal) x (ix3 (0 : Fin 1) P Q)
      = relClip 2#32 4#32 (x (ix2 (0 : Fin 1) P)) (x (ix2 (0 : Fin 1) Q)) := by
  rw [val_main_v41_apply, val_main_call4_v4_apply, val_main_call4_v3_apply, val_main_c_9_apply,
    val_main_call4_v2_apply, val_main_call4_v1_apply, val_main_call4_v0_apply, val_main_c_8_apply,
    val_main_v40_apply, val_main_v39_apply, val_main_c_7_apply, val_main_v38_apply]
  rw [show val_main_v36 (F := Ideal) x (ix3 (0 : Fin 1) P Q) = x (ix2 (0 : Fin 1) P) from alongRows_apply x P Q,
    show val_main_v37 (F := Ideal) x (ix3 (0 : Fin 1) P Q) = x (ix2 (0 : Fin 1) Q) from alongCols_apply x P Q]
  rfl

/-! ## The three buckets and the bit, at a pair -/

/-- The residue bucket of the reference at (P, Q). -/
theorem resBucket_apply (a r : Row) (P Q : Fin 1024) :
    val_main_v23 (F := Ideal) a r (ix3 (0 : Fin 1) P Q)
      = dRes (a (ix2 (0 : Fin 1) P)) (r (ix2 (0 : Fin 1) P)) (a (ix2 (0 : Fin 1) Q)) (r (ix2 (0 : Fin 1) Q)) := by
  rw [val_main_v23_apply, sameFeature_apply, clip64_apply,
    val_main_call1_v1_apply, val_main_call1_v0_apply, val_main_c_2_apply]
  rfl

/-- The token bucket of the reference at (P, Q). -/
theorem tokBucket_apply (a r t : Row) (P Q : Fin 1024) :
    val_main_v33 (F := Ideal) a r t (ix3 (0 : Fin 1) P Q)
      = dTok (a (ix2 (0 : Fin 1) P)) (r (ix2 (0 : Fin 1) P)) (t (ix2 (0 : Fin 1) P))
          (a (ix2 (0 : Fin 1) Q)) (r (ix2 (0 : Fin 1) Q)) (t (ix2 (0 : Fin 1) Q)) := by
  rw [val_main_v33_apply, val_main_v24_apply, sameFeature_apply,
    show val_main_v9 (F := Ideal) r (ix3 (0 : Fin 1) P Q)
      = IntOp.cmpi .eq (r (ix2 (0 : Fin 1) P)) (r (ix2 (0 : Fin 1) Q)) from sameFeature_apply r P Q,
    clip64'_apply, val_main_call3_v1_apply, val_main_call3_v0_apply, val_main_c_6_apply]
  rfl

/-- The "same entity" bit of the reference at (P, Q). -/
theorem sameEnt_apply (e : Row) (P Q : Fin 1024) :
    val_main_v14 (F := Ideal) e (ix3 (0 : Fin 1) P Q) = sameEnt (e (ix2 (0 : Fin 1) P)) (e (ix2 (0 : Fin 1) Q)) :=
  sameFeature_apply e P Q

/-- The chain bucket of the reference at (P, Q). -/
theorem chainBucket_apply (e s : Row) (P Q : Fin 1024) :
    val_main_v42 (F := Ideal) e s (ix3 (0 : Fin 1) P Q)
      = dChain (e (ix2 (0 : Fin 1) P)) (s (ix2 (0 : Fin 1) P)) (e (ix2 (0 : Fin 1) Q)) (s (ix2 (0 : Fin 1) Q)) := by
  rw [val_main_v42_apply, sameEnt_apply, clip4_apply,
    val_main_call5_v1_apply, val_main_call5_v0_apply, val_main_c_10_apply]
  rfl

/-! ## Reading a row gather

The reference looks a bucket up in a block of rows of the weight matrix: the operand is an N × 128 block, the start
indices one word per pair (P, Q), and the result at (0, P, Q, k) is the operand at column k of the row the word names,
read as a signed number and clamped into the block. -/

section RowGather
variable {α : Type}

/-- The dimension numbers of that lookup: result axis 3 runs along the operand's columns, operand axis 0 is indexed by
    the single component of the start index and then dropped, and a slice is one whole row. -/
abbrev rowDims (N : Nat)
    (wf : GatherDims.WF ⟨2, ![N, 128]⟩ ⟨4, ![1, 1024, 1024, 1]⟩ ⟨4, ![1, 1024, 1024, 128]⟩ [3] [0] [] [0] [] 3 ![1, 128]) :
    GatherDims ⟨2, ![N, 128]⟩ ⟨4, ![1, 1024, 1024, 1]⟩ ⟨4, ![1, 1024, 1024, 128]⟩ where
  offsetDims := [3]
  collapsedSliceDims := [0]
  operandBatchingDims := []
  startIndicesBatchingDims := []
  startIndexMap := [0]
  indexVectorDim := 3
  sliceSizes := ![1, 128]
  wf := wf

/-- The lookup at (0, P, Q, k): on operand axis 0 the start word at (0, P, Q, 0) clamped to [0, N − 1] (no batch and no
    offset contribution, the axis being collapsed); on operand axis 1 start 0 and the offset coordinate k. -/
theorem rowDims_apply {N : Nat} (hN : 0 < N)
    (wf : GatherDims.WF ⟨2, ![N, 128]⟩ ⟨4, ![1, 1024, 1024, 1]⟩ ⟨4, ![1, 1024, 1024, 128]⟩ [3] [0] [] [0] [] 3 ![1, 128])
    (x : (⟨2, ![N, 128]⟩ : Shape).Idx → α) (idx : IVec ⟨4, ![1, 1024, 1024, 1]⟩ 32)
    (P Q : Fin 1024) (k : Fin 128) :
    Host.gather (rowDims N wf) x idx (ix4 (0 : Fin 1) P Q k)
      = x (ix2 (⟨min (idx (ix4 (0 : Fin 1) P Q (0 : Fin 1))).toInt.toNat (N - 1), by omega⟩ : Fin N) k) := by
  unfold Host.gather
  congr 1
  funext a
  refine Fin.ext ?_
  match a with
  | ⟨0, _⟩ =>
    show (rowDims N wf).start (ix4 (0 : Fin 1) P Q k) idx 0 + (rowDims N wf).batchCoord (ix4 (0 : Fin 1) P Q k) 0
      + (rowDims N wf).offCoord (ix4 (0 : Fin 1) P Q k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix4 (0 : Fin 1) P Q k) ⟨List.idxOf (0 : Fin 2) (rowDims N wf).startIndexMap,
        List.idxOf_lt_length_iff.2 (List.mem_singleton.mpr rfl)⟩ = ix4 (0 : Fin 1) P Q (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (rowDims N wf).start (ix4 (0 : Fin 1) P Q k) idx 1 + (rowDims N wf).batchCoord (ix4 (0 : Fin 1) P Q k) 1
      + (rowDims N wf).offCoord (ix4 (0 : Fin 1) P Q k) 1 = _
    rw [GatherDims.batchCoord_eq_zero _ _ _ List.not_mem_nil]
    unfold GatherDims.start
    rw [dif_neg (show ¬ (1 : Fin 2) ∈ (rowDims N wf).startIndexMap from
      fun h => Nat.one_ne_zero (congrArg Fin.val (List.mem_singleton.mp h)))]
    simp only [Nat.add_zero, Nat.zero_add]
    rfl

end RowGather

/-- A word below N ≤ 2^31 is its own signed reading, and the clamp to [0, N − 1] leaves it alone. -/
theorem clampRow_eq (d : BitVec 32) (N : ℕ) (h : d.toNat < N) (hN : N ≤ 2147483648) :
    min d.toInt.toNat (N - 1) = d.toNat := by
  have := d.isLt
  rw [BitVec.toInt_eq_toNat_cond]
  split_ifs <;> omega

/-- A bucket is never negative as a signed word, so the "add the table length to a negative index" branch is not
    taken. -/
theorem select_slt_zero (d y : BitVec 32) (h : ¬ d.slt 0#32 = true) :
    Scalar.select (IntOp.cmpi .slt d 0#32) y d = d := by
  have hb : d.slt 0#32 = false := Bool.eq_false_iff.mpr h
  show Scalar.select (BitVec.ofBool (d.slt 0#32)) y d = d
  rw [hb]
  exact select_zero y d

/-! ## The lookup words -/

/-- The residue lookup word at (0, P, Q, 0) is the residue bucket. -/
theorem resWord_apply (a r : Row) (P Q : Fin 1024) :
    val_main_v53 (F := Ideal) a r (ix4 (0 : Fin 1) P Q (0 : Fin 1))
      = dRes (a (ix2 (0 : Fin 1) P)) (r (ix2 (0 : Fin 1) P)) (a (ix2 (0 : Fin 1) Q)) (r (ix2 (0 : Fin 1) Q)) := by
  rw [val_main_v53_apply,
    show idx_main_v53 (ix4 (0 : Fin 1) P Q (0 : Fin 1)) = ix3 (0 : Fin 1) P Q from
      funext fun b => Fin.ext (by match b with | ⟨0, _⟩ => rfl | ⟨1, _⟩ => rfl | ⟨2, _⟩ => rfl),
    val_main_v52_apply, val_main_v49_apply, val_main_v48_apply, val_main_c_11_apply, resBucket_apply]
  exact select_slt_zero _ _ (not_slt_zero_of_toNat_lt _ 66 (dRes_lt _ _ _ _) (by decide))

/-- The token lookup word at (0, P, Q, 0) is the token bucket. -/
theorem tokWord_apply (a r t : Row) (P Q : Fin 1024) :
    val_main_v60 (F := Ideal) a r t (ix4 (0 : Fin 1) P Q (0 : Fin 1))
      = dTok (a (ix2 (0 : Fin 1) P)) (r (ix2 (0 : Fin 1) P)) (t (ix2 (0 : Fin 1) P))
          (a (ix2 (0 : Fin 1) Q)) (r (ix2 (0 : Fin 1) Q)) (t (ix2 (0 : Fin 1) Q)) := by
  rw [val_main_v60_apply,
    show idx_main_v60 (ix4 (0 : Fin 1) P Q (0 : Fin 1)) = ix3 (0 : Fin 1) P Q from
      funext fun b => Fin.ext (by match b with | ⟨0, _⟩ => rfl | ⟨1, _⟩ => rfl | ⟨2, _⟩ => rfl),
    val_main_v59_apply, val_main_v56_apply, val_main_v55_apply, val_main_c_13_apply, tokBucket_apply]
  exact select_slt_zero _ _ (not_slt_zero_of_toNat_lt _ 66 (dTok_lt _ _ _ _ _ _) (by decide))

/-- The chain lookup word at (0, P, Q, 0) is the chain bucket. -/
theorem chainWord_apply (e s : Row) (P Q : Fin 1024) :
    val_main_v75 (F := Ideal) e s (ix4 (0 : Fin 1) P Q (0 : Fin 1))
      = dChain (e (ix2 (0 : Fin 1) P)) (s (ix2 (0 : Fin 1) P)) (e (ix2 (0 : Fin 1) Q)) (s (ix2 (0 : Fin 1) Q)) := by
  rw [val_main_v75_apply,
    show idx_main_v75 (ix4 (0 : Fin 1) P Q (0 : Fin 1)) = ix3 (0 : Fin 1) P Q from
      funext fun b => Fin.ext (by match b with | ⟨0, _⟩ => rfl | ⟨1, _⟩ => rfl | ⟨2, _⟩ => rfl),
    val_main_v74_apply, val_main_v71_apply, val_main_v70_apply, val_main_c_15_apply, chainBucket_apply]
  exact select_slt_zero _ _ (not_slt_zero_of_toNat_lt _ 6 (dChain_lt _ _ _ _) (by decide))

/-! ## The four terms of a cell -/

/-- The residue term: the first 66-row block of the weights at row "residue bucket", column k. -/
theorem resTerm_apply (a r : Row) (W : Wts) (P Q : Fin 1024) (k : Fin 128) :
    val_main_v54 (F := Ideal) a r W (ix4 (0 : Fin 1) P Q k)
      = wAt W k (dRes (a (ix2 (0 : Fin 1) P)) (r (ix2 (0 : Fin 1) P)) (a (ix2 (0 : Fin 1) Q)) (r (ix2 (0 : Fin 1) Q))).toNat := by
  have hd := dRes_lt (a (ix2 (0 : Fin 1) P)) (r (ix2 (0 : Fin 1) P)) (a (ix2 (0 : Fin 1) Q)) (r (ix2 (0 : Fin 1) Q))
  unfold val_main_v54
  refine (rowDims_apply (N := 66) (by decide) _ _ _ P Q k).trans ?_
  rw [val_main_v43_apply, wAt_of_lt W k _ (Nat.lt_trans hd (by decide))]
  refine congrArg W (funext fun b => Fin.ext ?_)
  match b with
  | ⟨0, _⟩ =>
    exact (congrArg (fun w : BitVec 32 => min w.toInt.toNat (66 - 1)) (resWord_apply a r P Q)).trans
      (clampRow_eq _ 66 hd (by decide))
  | ⟨1, _⟩ => rfl

/-- The token term: the second 66-row block (rows 66 … 131) at row "token bucket", column k. -/
theorem tokTerm_apply (a r t : Row) (W : Wts) (P Q : Fin 1024) (k : Fin 128) :
    val_main_v61 (F := Ideal) a r t W (ix4 (0 : Fin 1) P Q k)
      = wAt W k (66 + (dTok (a (ix2 (0 : Fin 1) P)) (r (ix2 (0 : Fin 1) P)) (t (ix2 (0 : Fin 1) P))
          (a (ix2 (0 : Fin 1) Q)) (r (ix2 (0 : Fin 1) Q)) (t (ix2 (0 : Fin 1) Q))).toNat) := by
  have hd := dTok_lt (a (ix2 (0 : Fin 1) P)) (r (ix2 (0 : Fin 1) P)) (t (ix2 (0 : Fin 1) P))
    (a (ix2 (0 : Fin 1) Q)) (r (ix2 (0 : Fin 1) Q)) (t (ix2 (0 : Fin 1) Q))
  unfold val_main_v61
  refine (rowDims_apply (N := 66) (by decide) _ _ _ P Q k).trans ?_
  rw [val_main_v44_apply, wAt_of_lt W k _ (by omega)]
  refine congrArg W (funext fun b => Fin.ext ?_)
  match b with
  | ⟨0, _⟩ =>
    exact congrArg (66 + ·) ((congrArg (fun w : BitVec 32 => min w.toInt.toNat (66 - 1)) (tokWord_apply a r t P Q)).trans
      (clampRow_eq _ 66 hd (by decide)))
  | ⟨1, _⟩ => rfl

/-- The chain term: the last 6-row block (rows 133 … 138) at row "chain bucket", column k. -/
theorem chainTerm_apply (e s : Row) (W : Wts) (P Q : Fin 1024) (k : Fin 128) :
    val_main_v76 (F := Ideal) e s W (ix4 (0 : Fin 1) P Q k)
      = wAt W k (133 + (dChain (e (ix2 (0 : Fin 1) P)) (s (ix2 (0 : Fin 1) P)) (e (ix2 (0 : Fin 1) Q)) (s (ix2 (0 : Fin 1) Q))).toNat) := by
  have hd := dChain_lt (e (ix2 (0 : Fin 1) P)) (s (ix2 (0 : Fin 1) P)) (e (ix2 (0 : Fin 1) Q)) (s (ix2 (0 : Fin 1) Q))
  unfold val_main_v76
  refine (rowDims_apply (N := 6) (by decide) _ _ _ P Q k).trans ?_
  rw [val_main_v47_apply, wAt_of_lt W k _ (by omega)]
  refine congrArg W (funext fun b => Fin.ext ?_)
  match b with
  | ⟨0, _⟩ =>
    exact congrArg (133 + ·) ((congrArg (fun w : BitVec 32 => min w.toInt.toNat (6 - 1)) (chainWord_apply e s P Q)).trans
      (clampRow_eq _ 6 hd (by decide)))
  | ⟨1, _⟩ => rfl

/-- The entity term: the "same entity" bit as a number, times row 132 of the weights at column k. -/
theorem entTerm_apply (e : Row) (W : Wts) (P Q : Fin 1024) (k : Fin 128) :
    val_main_v68 (F := Ideal) e W (ix4 (0 : Fin 1) P Q k)
      = bitVal (sameEnt (e (ix2 (0 : Fin 1) P)) (e (ix2 (0 : Fin 1) Q))) * wAt W k 132 := by
  rw [val_main_v68_apply, val_main_v66_apply, val_main_v64_apply, val_main_v63_apply,
    show idx_main_v63 (idx_main_v66 (ix4 (0 : Fin 1) P Q k)) = ix3 (0 : Fin 1) P Q from
      funext fun b => Fin.ext (by match b with | ⟨0, _⟩ => rfl | ⟨1, _⟩ => rfl | ⟨2, _⟩ => rfl),
    sameEnt_apply,
    val_main_v67_apply, val_main_v65_apply, val_main_v46_apply, val_main_v45_apply,
    show idx_main_v45 (idx_main_v46 (idx_main_v65 (idx_main_v67 (ix4 (0 : Fin 1) P Q k)))) = ix2 (⟨132, by decide⟩ : Fin 139) k from
      funext fun b => Fin.ext (by
        match b with
        | ⟨0, _⟩ => rfl
        | ⟨1, _⟩ => exact Nat.mod_eq_of_lt k.isLt),
    wAt_of_lt W k 132 (by decide)]
  rfl

/-! ## The reference's result -/

/-- The reference at (0, P, Q, k) is the cell of the pair (P, Q) at channel k: the four terms in the order
    residue, token, entity, chain. -/
theorem ref_apply (x0 x1 x2 x3 x4 : (⟨S1x1024, .i32⟩ : BufTy).Contents (Elt Ideal))
    (x5 : (⟨S139x128, .f32⟩ : BufTy).Contents (Elt Ideal)) (P Q : Fin 1024) (k : Fin 128) :
    Cert.ReferenceIdeal.Read.val_main_v77 (F := Ideal) x0 x1 x2 x3 x4 x5 (ValueIdx.ix4 (0 : Fin 1) P Q k)
      = Cert.RelPos.cellAt x0 x1 x2 x3 x4 x5 P Q k := by
  rw [val_main_v77_apply, val_main_v69_apply, val_main_v62_apply,
    resTerm_apply, tokTerm_apply, entTerm_apply, chainTerm_apply]
  rfl

/-- The reference's whole result is the embedding. -/
theorem ref_eq_G (x0 x1 x2 x3 x4 : (⟨S1x1024, .i32⟩ : BufTy).Contents (Elt Ideal))
    (x5 : (⟨S139x128, .f32⟩ : BufTy).Contents (Elt Ideal)) :
    Cert.ReferenceIdeal.Read.val_main_v77 (F := Ideal) x0 x1 x2 x3 x4 x5 = Cert.RelPos.G x0 x1 x2 x3 x4 x5 := by
  funext i
  obtain ⟨z, P, Q, k, rfl⟩ : ∃ (z : Fin 1) (P Q : Fin 1024) (k : Fin 128), i = ix4 z P Q k :=
    ⟨i 0, i 1, i 2, i 3, eq_ix4 i⟩
  obtain rfl : z = 0 := Subsingleton.elim _ _
  rw [ref_apply]
  rfl

end Cert.ReferenceIdeal.RefValue

end
-- ==== Proof.lean ====
/-
  The relative-position embedding kernel against its gather reference.

  Both programs take five rows of 1024 integer token features (chain, residue, entity, symmetry copy, token index) and a
  139 × 128 weight matrix, and produce, for every pair of tokens (P, Q) and channel k, the sum of four weight rows at
  column k: the row of the clipped residue offset (or the bucket "other chain"), 66 plus the row of the clipped token
  offset (or "other chain or residue"), row 132 scaled by the bit "same entity", and 133 plus the row of the clipped
  symmetry-copy offset (or "other entity"). The reference picks the rows by three gathers. The kernel builds, for each
  64 × 128 tile of pairs, the one-hot rows of the three buckets and multiplies them into the three slices of the
  weights; a one-hot row times a matrix is the selected row, over every extended real (0 · x = 0, 1 · x = x), so the
  two agree entry by entry with no condition on the weights, and the two groupings of the four-term sum agree because
  addition of extended reals is associative.

  The pieces: `Spec` states the embedding cell by cell; `KIDefs` / `KIFrame` (and their word-level twins `KDefs` /
  `KFrame`) run the pipelined call and leave the arguments unchanged; `BlockValue` reads one entry of an output tile;
  `InBlocks` reads the input tiles off the argument arrays; `OutArray` assembles the tiles into the result array and
  carries it through the final reshape; `RefValue` reads the reference's result at an index.
-/
import proofs.«423344_j87883620811381_3_alg».proof.Defs
import proofs.«423344_j87883620811381_3_alg».proof.Proof.Gen.Kernel
import proofs.«423344_j87883620811381_3_alg».proof.Proof.Gen.KernelIdeal
import proofs.«423344_j87883620811381_3_alg».proof.Proof.Gen.ReferenceIdeal
import proofs.«423344_j87883620811381_3_alg».proof.Proof.Gen.Pre_finite_inputs
import proofs.«423344_j87883620811381_3_alg».proof.Proof.Gen.ReferenceIdeal.Run
import proofs.«423344_j87883620811381_3_alg».proof.Proof.Gen.ReferenceIdeal.Read
import proofs.«423344_j87883620811381_3_alg».proof.Proof.Spec
import proofs.«423344_j87883620811381_3_alg».proof.Proof.KFrame
import proofs.«423344_j87883620811381_3_alg».proof.Proof.KIFrame
import proofs.«423344_j87883620811381_3_alg».proof.Proof.OutArray
import proofs.«423344_j87883620811381_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end and leaves its six arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized program is the word-level program's own text. -/
theorem preserves : Cert.preserves_Kernel_KernelIdeal := trivial

/-- From memories that agree on the arguments both programs end with the embedding `Cert.RelPos.G` of the arguments:
    the kernel by its tiles assembled and reshaped, the reference by its gathers read at an index. -/
theorem algebraic : Cert.algebraic_KernelIdeal_ReferenceIdeal := by
  intro m ρ m' ρ' _ hagree
  refine ⟨fun c => Cert.RelPos.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.OutArray.result_v13 m c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v77_eq, Cert.ReferenceIdeal.RefValue.ref_eq_G,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
